-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x20000 : Shape := ⟨2, ![256, 20000]⟩
abbrev S1000000 : Shape := ⟨1, ![1000000]⟩
abbrev S5000 : Shape := ⟨1, ![5000]⟩
abbrev S_ : Shape := ⟨0, ![]⟩

class Facts : Prop where
  bcast_S_S256x20000 : S_.BroadcastsInDim S256x20000 (![] : Fin 0 → Fin S256x20000.rank)
  reducesTo_S256x20000_S_d0_1 : S256x20000.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S5000 : S_.BroadcastsInDim S5000 (![] : Fin 0 → Fin S5000.rank)
  reducesTo_S5000_S_d0 : S5000.ReducesTo [0] S_

variable [Facts]

def fn_part1 {F : FTy → Type} [FloatOps F] (main_arg1 : IVec S1000000 32) (main_arg2 : IVec S1000000 32) (main_v13 : IVec S_ 1) (main_v15 : IVec S1000000 1) (main_c_5 : IVec S_ 1) : IVec S_ 1 :=
  let main_v16 : IVec S_ 1 := (fun x v => Host.reduce IntOp.andi x v reducesTo_S1000000_S_d0 h_S_) main_v15 main_c_5
  let main_v17 : IVec S_ 1 := andi main_v13 main_v16
  let main_c_6 : IVec S_ 32 := constantI S_ 32 20000#32
  let main_v18 : IVec S1000000 32 := broadcastInDim S1000000 ![] bcast_S_S1000000 main_c_6
  let main_v19 : IVec S1000000 1 := cmpi .slt main_arg1 main_v18
  let main_c_7 : IVec S_ 1 := constantI S_ 1 1#1
  let main_v20 : IVec S_ 1 := (fun x v => Host.reduce IntOp.andi x v reducesTo_S1000000_S_d0 h_S_) main_v19 main_c_7
  let main_v21 : IVec S_ 1 := andi main_v17 main_v20
  let main_c_8 : IVec S_ 32 := constantI S_ 32 0#32
  let main_v22 : IVec S1000000 32 := broadcastInDim S1000000 ![] bcast_S_S1000000 main_c_8
  let main_v23 : IVec S1000000 1 := cmpi .sge main_arg2 main_v22
  let main_c_9 : IVec S_ 1 := constantI S_ 1 1#1
  let main_v24 : IVec S_ 1 := (fun x v => Host.reduce IntOp.andi x v reducesTo_S1000000_S_d0 h_S_) main_v23 main_c_9
  let main_v25 : IVec S_ 1 := andi main_v21 main_v24
  main_v25

def fn {F : FTy → Type} [FloatOps F] (main_arg0 : FVec F S256x20000 .f32) (main_arg1 : IVec S1000000 32) (main_arg2 : IVec S1000000 32) (main_arg3 : FVec F S1000000 .f32) (main_arg4 : FVec F S5000 .f32) : IVec S_ 1 :=
  let main_v0 : FVec F S256x20000 .f32 := Host.absf main_arg0
  let main_cst : FVec F S_ .f32 := constant S_ .f32 0x7F800000#32
  let main_v1 : FVec F S256x20000 .f32 := broadcastInDim S256x20000 ![] bcast_S_S256x20000 main_cst
  let main_v2 : IVec S256x20000 1 := cmpf .olt main_v0 main_v1
  let main_c : IVec S_ 1 := constantI S_ 1 1#1
  let main_v3 : IVec S_ 1 := (fun x v => Host.reduce IntOp.andi x v reducesTo_S256x20000_S_d0_1 h_S_) main_v2 main_c
  let main_v4 : FVec F S1000000 .f32 := Host.absf main_arg3
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S5000 .f32 := Host.absf main_arg4
  let main_cst_2 : FVec F S_ .f32 := constant S_ .f32 0x7F800000#32
  let main_v10 : FVec F S5000 .f32 := broadcastInDim S5000 ![] bcast_S_S5000 main_cst_2
  let main_v11 : IVec S5000 1 := cmpf .olt main_v9 main_v10
  let main_c_3 : IVec S_ 1 := constantI S_ 1 1#1
  let main_v12 : IVec S_ 1 := (fun x v => Host.reduce IntOp.andi x v reducesTo_S5000_S_d0 h_S_) main_v11 main_c_3
  let main_v13 : IVec S_ 1 := andi main_v8 main_v12
  let main_c_4 : IVec S_ 32 := constantI S_ 32 0#32
  let main_v14 : IVec S1000000 32 := broadcastInDim S1000000 ![] bcast_S_S1000000 main_c_4
  let main_v15 : IVec S1000000 1 := cmpi .sge main_arg1 main_v14
  let main_c_5 : IVec S_ 1 := constantI S_ 1 1#1
  fn_part1 (F := F) main_arg1 main_arg2 main_v13 main_v15 main_c_5
-- ==== Kernel.lean ====
abbrev S256x20000 : Shape := ⟨2, ![256, 20000]⟩
abbrev S1000000 : Shape := ⟨1, ![1000000]⟩
abbrev S5000 : Shape := ⟨1, ![5000]⟩
abbrev S_ : Shape := ⟨0, ![]⟩
abbrev S20480x5120 : Shape := ⟨2, ![20480, 5120]⟩
abbrev S1000000x1 : Shape := ⟨2, ![1000000, 1]⟩
abbrev S1000000x2 : Shape := ⟨2, ![1000000, 2]⟩
abbrev S256x20480 : Shape := ⟨2, ![256, 20480]⟩
abbrev S5120 : Shape := ⟨1, ![5120]⟩
abbrev S1x5120 : Shape := ⟨2, ![1, 5120]⟩
abbrev S256x5120 : Shape := ⟨2, ![256, 5120]⟩
abbrev S2560x1280 : Shape := ⟨2, ![2560, 1280]⟩
abbrev S1x1280 : Shape := ⟨2, ![1, 1280]⟩
abbrev S256x1280 : Shape := ⟨2, ![256, 1280]⟩
abbrev S256x2560 : Shape := ⟨2, ![256, 2560]⟩
abbrev S256x5000 : Shape := ⟨2, ![256, 5000]⟩

abbrev nBuf : Space → Nat
  | .hbm => 36
  | .vmem => 8
  | .smem => 0
  | _ => 0

abbrev bufTy : (tb : Table) → Fin (tcTables nBuf tb) → BufTy
  | .hbm, ⟨0, _⟩ => ⟨S256x20000, .f32⟩
  | .hbm, ⟨1, _⟩ => ⟨S1000000, .i32⟩
  | .hbm, ⟨2, _⟩ => ⟨S1000000, .i32⟩
  | .hbm, ⟨3, _⟩ => ⟨S1000000, .f32⟩
  | .hbm, ⟨4, _⟩ => ⟨S5000, .f32⟩
  | .hbm, ⟨5, _⟩ => ⟨S_, .f32⟩
  | .hbm, ⟨6, _⟩ => ⟨S20480x5120, .f32⟩
  | .hbm, ⟨7, _⟩ => ⟨S_, .i32⟩
  | .hbm, ⟨8, _⟩ => ⟨S1000000, .i32⟩
  | .hbm, ⟨9, _⟩ => ⟨S1000000, .i1⟩
  | .hbm, ⟨10, _⟩ => ⟨S_, .i32⟩
  | .hbm, ⟨11, _⟩ => ⟨S1000000, .i32⟩
  | .hbm, ⟨12, _⟩ => ⟨S1000000, .i32⟩
  | .hbm, ⟨13, _⟩ => ⟨S1000000, .i32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x1, .i32⟩
  | .hbm, ⟨23, _⟩ => ⟨S1000000x2, .i32⟩
  | .hbm, ⟨24, _⟩ => ⟨S20480x5120, .f32⟩
  | .hbm, ⟨25, _⟩ => ⟨S20480x5120, .bf16⟩
  | .hbm, ⟨26, _⟩ => ⟨S_, .i32⟩
  | .hbm, ⟨27, _⟩ => ⟨S_, .f32⟩
  | .hbm, ⟨28, _⟩ => ⟨S256x20480, .f32⟩
  | .hbm, ⟨29, _⟩ => ⟨S256x20480, .bf16⟩
  | .hbm, ⟨30, _⟩ => ⟨S_, .i32⟩
  | .hbm, ⟨31, _⟩ => ⟨S_, .f32⟩
  | .hbm, ⟨32, _⟩ => ⟨S5120, .f32⟩
  | .hbm, ⟨33, _⟩ => ⟨S1x5120, .f32⟩
  | .hbm, ⟨34, _⟩ => ⟨S256x5120, .f32⟩
  | .hbm, ⟨35, _⟩ => ⟨S256x5000, .f32⟩
  | .local _ .vmem, ⟨0, _⟩ => ⟨S256x20480, .bf16⟩
  | .local _ .vmem, ⟨1, _⟩ => ⟨S2560x1280, .bf16⟩
  | .local _ .vmem, ⟨2, _⟩ => ⟨S2560x1280, .bf16⟩
  | .local _ .vmem, ⟨3, _⟩ => ⟨S1x1280, .f32⟩
  | .local _ .vmem, ⟨4, _⟩ => ⟨S1x1280, .f32⟩
  | .local _ .vmem, ⟨5, _⟩ => ⟨S256x1280, .f32⟩
  | .local _ .vmem, ⟨6, _⟩ => ⟨S256x1280, .f32⟩
  | .local _ .vmem, ⟨7, _⟩ => ⟨S256x1280, .f32⟩
  | _, _ => ⟨S256x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_call1_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c2560_i32 : BitVec 32 := 2560#32
  let v3 : BitVec 32 := Scalar.muli arg1 c2560_i32
  v3
def k0_off1 (i : grid0.Coords) : Fin 2 → Nat :=
  let c0 : Index := 0#32
  let arg1 : BitVec 32 := BitVec.ofNat 32 (i 1).val
  let c2560_i32 : BitVec 32 := 2560#32
  let v3 : BitVec 32 := Scalar.muli arg1 c2560_i32
  let v4 : BitVec 32 := v3
  let v5 : Index := Scalar.indexCast v4
  ![0, v5.toNat]
def k0_cond2 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S256x20480 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2560x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S20480x5120 : S_.BroadcastsInDim S20480x5120 (![] : Fin 0 → Fin S20480x5120.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x1_S1000000x1_S1000000x2_d1 : Shape.Concatenates [S1000000x1, S1000000x1] S1000000x2 1
  bitsLt_bf16_f32 : FTy.bits .bf16 < FTy.bits .f32
  pads_S256x20000_S256x20480_000_04800 : S256x20000.Pads (![0, 0] : Fin 2 → Nat) ![0, 480] ![0, 0] S256x20480
  h_S_ : 0 < S_.numel
  pads_S5000_S5120_01200 : S5000.Pads (![0] : Fin 1 → Nat) ![120] ![0] S5120
  shapeCasts_S5120_S1x5120 : S5120.ShapeCasts S1x5120
  inb_S256x1280_S256x1280_0_0 : ∀ a, (![0, 0] : Fin 2 → Nat) a + S256x1280.size a ≤ S256x1280.size a
  h_S256x1280 : 0 < S256x1280.numel
  shapeCasts_S256x1280_S256x1280 : S256x1280.ShapeCasts S256x1280
  h_S256x2560 : 0 < S256x2560.numel
  shapeCasts_S256x2560_S256x2560 : S256x2560.ShapeCasts S256x2560
  inb_S2560x1280_S2560x1280_0_0 : ∀ a, (![0, 0] : Fin 2 → Nat) a + S2560x1280.size a ≤ S2560x1280.size a
  h_S2560x1280 : 0 < S2560x1280.numel
  shapeCasts_S2560x1280_S2560x1280 : S2560x1280.ShapeCasts S2560x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S256x1280 : S1x1280.Broadcasts S256x1280
  slices_S256x5120_S256x5000_0_0 : S256x5120.Slices ![0, 0] S256x5000
  scatter_S20480x5120_S1000000x2_S1000000_n_01_01_1_wf : ScatterDims.WF S20480x5120 S1000000x2 S1000000 [] [0, 1] [0, 1] 1
  dot_S256x2560_S2560x1280_S256x1280_1_0_0_1_n_n_wf : DotDims.WF S256x2560 S2560x1280 S256x1280 [1] [0] [0] [1] [] []
  hrank0 : 0 < grid0.rank
  k0_mult1_dvd : ∀ i : grid0.Coords, 128 ∣ (k0_mult1 i).toNat
  k0_off1_inb : ∀ i : grid0.Coords, ∀ a, (k0_off1 i) a + S256x2560.size a ≤ S256x20480.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x20480.size a ≤ S256x20480.size a
  hwx0_0 : ∀ i : grid0.Coords, EltTy.bits .bf16 = 32 ∨ (Rect.block (s := S256x20480) S256x20480.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x1280.size a ≤ S20480x5120.size a
  hwx0_1 : ∀ i : grid0.Coords, EltTy.bits .bf16 = 32 ∨ (Rect.block (s := S20480x5120) S2560x1280.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1280.size a ≤ S1x5120.size a
  hwx0_2 : ∀ i : grid0.Coords, EltTy.bits .f32 = 32 ∨ (Rect.block (s := S1x5120) S1x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1280.size a ≤ S256x5120.size a
  hwx0_3 : ∀ i : grid0.Coords, EltTy.bits .f32 = 32 ∨ (Rect.block (s := S256x5120) S256x1280.size (cc0_transform_3 i) (hinb0_3 i)).WholeWords (EltTy.packing .f32)

variable [Facts₀]

def scatter_S20480x5120_S1000000x2_S1000000_n_01_01_1 : ScatterDims S20480x5120 S1000000x2 S1000000 where
  updateWindowDims := []
  insertedWindowDims := [0, 1]
  scatterDimsToOperandDims := [0, 1]
  indexVectorDim := 1
  wf := scatter_S20480x5120_S1000000x2_S1000000_n_01_01_1_wf
def dot_S256x2560_S2560x1280_S256x1280_1_0_0_1_n_n : DotDims S256x2560 S2560x1280 S256x1280 where
  lhsContracting := [1]
  rhsContracting := [0]
  lhsNonContracting := [0]
  rhsNonContracting := [1]
  lhsBatch := []
  rhsBatch := []
  wf := dot_S256x2560_S2560x1280_S256x1280_1_0_0_1_n_n_wf

abbrev win0_0 : Pipeline.Window sig grid0 :=
  Pipeline.Window.ofSpec (Memref.whole main_v17) S256x20480.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2560x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S256x1280.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256x20000 : Shape := ⟨2, ![256, 20000]⟩
abbrev S1000000 : Shape := ⟨1, ![1000000]⟩
abbrev S5000 : Shape := ⟨1, ![5000]⟩
abbrev S_ : Shape := ⟨0, ![]⟩
abbrev S1000000x1 : Shape := ⟨2, ![1000000, 1]⟩
abbrev S256x1000000 : Shape := ⟨2, ![256, 1000000]⟩
abbrev S1x1000000 : Shape := ⟨2, ![1, 1000000]⟩
abbrev S1000000x256 : Shape := ⟨2, ![1000000, 256]⟩
abbrev S5000x256 : Shape := ⟨2, ![5000, 256]⟩
abbrev S256x5000 : Shape := ⟨2, ![256, 5000]⟩
abbrev S1x5000 : Shape := ⟨2, ![1, 5000]⟩

abbrev nBuf : Space → Nat
  | .hbm => 27
  | .vmem => 0
  | .smem => 0
  | _ => 0

abbrev bufTy : (tb : Table) → Fin (tcTables nBuf tb) → BufTy
  | .hbm, ⟨0, _⟩ => ⟨S256x20000, .f32⟩
  | .hbm, ⟨1, _⟩ => ⟨S1000000, .i32⟩
  | .hbm, ⟨2, _⟩ => ⟨S1000000, .i32⟩
  | .hbm, ⟨3, _⟩ => ⟨S1000000, .f32⟩
  | .hbm, ⟨4, _⟩ => ⟨S5000, .f32⟩
  | .hbm, ⟨5, _⟩ => ⟨S_, .i32⟩
  | .hbm, ⟨6, _⟩ => ⟨S1000000, .i32⟩
  | .hbm, ⟨7, _⟩ => ⟨S1000000, .i1⟩
  | .hbm, ⟨8, _⟩ => ⟨S_, .i32⟩
  | .hbm, ⟨9, _⟩ => ⟨S1000000, .i32⟩
  | .hbm, ⟨10, _⟩ => ⟨S1000000, .i32⟩
  | .hbm, ⟨11, _⟩ => ⟨S1000000, .i32⟩
  | .hbm, ⟨12, _⟩ => ⟨S1000000x1, .i32⟩
  | .hbm, ⟨13, _⟩ => ⟨S256x1000000, .f32⟩
  | .hbm, ⟨14, _⟩ => ⟨S1x1000000, .f32⟩
  | .hbm, ⟨15, _⟩ => ⟨S256x1000000, .f32⟩
  | .hbm, ⟨16, _⟩ => ⟨S256x1000000, .f32⟩
  | .hbm, ⟨17, _⟩ => ⟨S1000000x256, .f32⟩
  | .hbm, ⟨18, _⟩ => ⟨S_, .f32⟩
  | .hbm, ⟨19, _⟩ => ⟨S5000x256, .f32⟩
  | .hbm, ⟨20, _⟩ => ⟨S1000000x1, .i32⟩
  | .hbm, ⟨21, _⟩ => ⟨S5000x256, .f32⟩
  | .hbm, ⟨22, _⟩ => ⟨S256x5000, .f32⟩
  | .hbm, ⟨23, _⟩ => ⟨S1x5000, .f32⟩
  | .hbm, ⟨24, _⟩ => ⟨S256x5000, .f32⟩
  | .hbm, ⟨25, _⟩ => ⟨S256x5000, .f32⟩
  | .hbm, ⟨26, _⟩ => ⟨S256x5000, .f32⟩
  | _, _ => ⟨S256x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000_S1x1000000_1 : S1000000.BroadcastsInDim S1x1000000 (![1] : Fin 1 → Fin S1x1000000.rank)
  bcast_S1x1000000_S256x1000000_0_1 : S1x1000000.BroadcastsInDim S256x1000000 (![0, 1] : Fin 2 → Fin S256x1000000.rank)
  transposes_S256x1000000_S1000000x256_1_0 : S256x1000000.Transposes [1, 0] S1000000x256
  bcast_S_S5000x256 : S_.BroadcastsInDim S5000x256 (![] : Fin 0 → Fin S5000x256.rank)
  transposes_S5000x256_S256x5000_1_0 : S5000x256.Transposes [1, 0] S256x5000
  bcast_S5000_S1x5000_1 : S5000.BroadcastsInDim S1x5000 (![1] : Fin 1 → Fin S1x5000.rank)
  bcast_S1x5000_S256x5000_0_1 : S1x5000.BroadcastsInDim S256x5000 (![0, 1] : Fin 2 → Fin S256x5000.rank)
  gather_S256x20000_S1000000x1_S256x1000000_0_1_n_n_1_1_2561_wf : GatherDims.WF S256x20000 S1000000x1 S256x1000000 [0] [1] [] [1] [] 1 ![256, 1]
  scatter_S5000x256_S1000000x1_S1000000x256_1_0_0_1_wf : ScatterDims.WF S5000x256 S1000000x1 S1000000x256 [1] [0] [0] 1

variable [Facts₀]

def gather_S256x20000_S1000000x1_S256x1000000_0_1_n_n_1_1_2561 : GatherDims S256x20000 S1000000x1 S256x1000000 where
  offsetDims := [0]
  collapsedSliceDims := [1]
  operandBatchingDims := []
  startIndicesBatchingDims := []
  startIndexMap := [1]
  indexVectorDim := 1
  sliceSizes := ![256, 1]
  wf := gather_S256x20000_S1000000x1_S256x1000000_0_1_n_n_1_1_2561_wf
def scatter_S5000x256_S1000000x1_S1000000x256_1_0_0_1 : ScatterDims S5000x256 S1000000x1 S1000000x256 where
  updateWindowDims := [1]
  insertedWindowDims := [0]
  scatterDimsToOperandDims := [0]
  indexVectorDim := 1
  wf := scatter_S5000x256_S1000000x1_S1000000x256_1_0_0_1_wf

class Facts : Prop extends Facts₀ where

variable [Facts]
-- ==== Proof.EdgeSum.lean ====
/-
  Edge sums. A sparse layer sends each edge's weighted source activation to the edge's destination
  unit; a dense layer first adds the edge weights into a matrix and then multiplies. Over finite
  numbers the two agree: a source activation times the sum of the weights of the edges that read it
  is the sum, over those edges, of activation times weight.
-/
import Idealize.ShloMosaic.PureOps.Ideal
import Idealize.ShloMosaic.Lib.ValueIdx

noncomputable section

namespace Cert.EdgeSum

open Idealize.ShloMosaic Idealize.ShloMosaic.ValueIdx

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW. For finite activations `x` (one per source unit) and finite edge weights `w`: the dense product
    `∑ₖ x k · (∑ of w over the selected edges whose source is k)` is the edgewise sum `∑ over the selected
    edges of x (source e) · w e`. -/
theorem sum_mul_edgeSum {E K : Type} [Fintype E] [Fintype K] [DecidableEq K]
    (s : E → K) (P : E → Prop) [DecidablePred P] (x : K → EReal) (w : E → EReal)
    (hx : ∀ k, ∃ r : ℝ, x k = (r : EReal)) (hw : ∀ e, ∃ r : ℝ, w e = (r : EReal)) :
    ∑ k, x k * (∑ e ∈ Finset.univ.filter (fun e => s e = k ∧ P e), w e)
      = ∑ e ∈ Finset.univ.filter P, x (s e) * w e := by
  choose xr hxr using hx
  choose wr hwr using hw
  have hx' : x = fun k => (xr k : EReal) := funext hxr
  have hw' : w = fun e => (wr e : EReal) := funext hwr
  subst hx' hw'
  simp only [← coe_sum, ← EReal.coe_mul]
  congr 1
  -- over the reals
  calc ∑ k, xr k * ∑ e ∈ Finset.univ.filter (fun e => s e = k ∧ P e), wr e
      = ∑ k, ∑ e ∈ Finset.univ.filter P, (if s e = k then xr k * wr e else 0) := by
        refine Finset.sum_congr rfl fun k _ => ?_
        rw [Finset.mul_sum, ← Finset.sum_filter, Finset.filter_filter]
        refine Finset.sum_congr ?_ fun _ _ => rfl
        ext e; simp only [Finset.mem_filter, Finset.mem_univ, true_and]; exact and_comm
    _ = ∑ e ∈ Finset.univ.filter P, ∑ k, (if s e = k then xr k * wr e else 0) := Finset.sum_comm
    _ = ∑ e ∈ Finset.univ.filter P, xr (s e) * wr e := by
        refine Finset.sum_congr rfl fun e _ => ?_
        rw [Finset.sum_ite_eq Finset.univ (s e) (fun k => xr k * wr e), if_pos (Finset.mem_univ _)]

/-- THE LAYER at batch row `b` and output unit `j`: `tanh (∑ over the edges e into j of x[b, row e] · w e + bias j)`;
    `row e` is the source unit of edge `e`, and an edge goes into `j` when its destination word, read signed, is `j`. -/
def unit (x : (⟨2, ![256, 20000]⟩ : Shape).Idx → EReal) (row : Fin 1000000 → Fin 20000)
    (dst : (⟨1, ![1000000]⟩ : Shape).Idx → BitVec 32) (w : (⟨1, ![1000000]⟩ : Shape).Idx → EReal)
    (bias : (⟨1, ![5000]⟩ : Shape).Idx → EReal) (b : Fin 256) (j : Fin 5000) : EReal :=
  Ideal.tanh ((∑ e ∈ Finset.univ.filter (fun e : Fin 1000000 => (dst (ix1 e)).toInt = (j.val : ℤ)),
      x (ix2 b (row e)) * w (ix1 e)) + bias (ix1 j))

end Cert.EdgeSum

end
-- ==== Proof.Pieces.lean ====
/-
  What one grid point leaves behind: the accumulator after the point is the accumulator before it
  plus the product of the point's slice of the left operand with its block of the right operand
  (the first point of a column block starts from zero), and the last point of a column block stores
  tanh (accumulator + bias).
-/
import proofs.«406503_j17016660427206_2_alg».proof.Proof.Gen.KernelIdeal.Frame
import proofs.«406503_j17016660427206_2_alg».proof.Proof.EdgeSum
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Pieces

open Cert.KernelIdeal Cert.KernelIdeal.Gen

/-- The product of the left operand's 2560 columns `col 0 … col 2559` with a right block, at row `b` and column `cc`. -/
def prod (x0 : Vec Ideal S256x20480 .bf16) (x1 : Vec Ideal S2560x1280 .bf16) (col : Fin 2560 → Fin 20480)
    (b : Fin 256) (cc : Fin 1280) : EReal :=
  ∑ kk : Fin 2560, (x0 (ix2 b (col kk)) : EReal) * (x1 (ix2 kk cc) : EReal)

/-! ## What each control case leaves, as payloads of the blocks it loads (any float instance) -/

section AnyInstance

variable {F : FTy → Type} [FloatOps F]

/-- The zero offsets of a whole-buffer access. -/
theorem hz : (![0, 0] : Fin 2 → Nat) = fun _ => 0 := funext fun a => by fin_cases a <;> rfl

/-- The slice of the left operand a point reads: 256 rows, 2560 columns from the point's column offset. -/
def xslice (i : grid0.Coords) (x0 : Vec F S256x20480 .bf16) : Vec F S256x2560 .bf16 :=
  View.ld x0 (Rect.unit (s := S256x20480) (k0_off1 i) S256x2560.size (k0_off1_inb i))

variable (c : Dev nD) (i : grid0.Coords)
  (arg2 : Memref sig .tc .vmem S256x20480 .bf16) (harg2 : arg2.IsWhole)
  (arg3 : Memref sig .tc .vmem S2560x1280 .bf16) (harg3 : arg3.IsWhole)
  (arg4 : Memref sig .tc .vmem S1x1280 .f32) (harg4 : arg4.IsWhole)
  (arg5 : Memref sig .tc .vmem S256x1280 .f32) (harg5 : arg5.IsWhole)
  (arg6 : Memref sig .tc .vmem S256x1280 .f32) (harg6 : arg6.IsWhole)
  (x0 : Vec F S256x20480 .bf16) (x1 : Vec F S2560x1280 .bf16) (x2 : Vec F S1x1280 .f32)
  (xs0 : Vec F S256x1280 .f32)

/-- Case A: the accumulator is stored with zeros, read back, and stored with the update of that. -/
theorem piece_A (hc0 : cond0_0 i) (hc1 : ¬cond0_1 i) :
    sout0_A_0 (F := F) c i arg2 harg2 arg3 harg3 arg4 harg4 arg5 harg5 arg6 harg6 hc0 hc1 x0 x1 x2
      = k0_pay2 (xslice i x0) (k0_pay1 (F := F)) x1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S256x1280) hz, View.readCov_unit_zero (S := S256x1280) _ hz]
  simp only [View.readAt_eq_ld, harg2.read_unread, harg3.read_unread,
    View.ld_unit_zero (S := S2560x1280) hz]
  rfl

/-- Case B: one covering store of the update of what the accumulator held. -/
theorem piece_B (hc0 : ¬cond0_0 i) (hc1 : ¬cond0_1 i) :
    sout0_B_0 (F := F) c i arg2 harg2 arg3 harg3 arg4 harg4 arg5 harg5 arg6 harg6 hc0 hc1 x0 x1 x2 xs0
      = k0_pay2 (xslice i x0) xs0 x1 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S256x1280) hz]
  simp only [View.readAt_eq_ld, harg2.read_unread, harg3.read_unread, harg6.read_unread,
    View.ld_unit_zero (S := S256x1280) hz, View.ld_unit_zero (S := S2560x1280) hz]
  rfl

/-- Case C, the accumulator: the same store as in case B. -/
theorem piece_C (hc0 : ¬cond0_0 i) (hc1 : cond0_1 i) :
    sout0_C_0 (F := F) c i arg2 harg2 arg3 harg3 arg4 harg4 arg5 harg5 arg6 harg6 hc0 hc1 x0 x1 x2 xs0
      = k0_pay2 (xslice i x0) xs0 x1 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S256x1280) hz]
  simp only [View.readAt_eq_ld, harg2.read_unread, harg3.read_unread, harg6.read_unread,
    View.ld_unit_zero (S := S256x1280) hz, View.ld_unit_zero (S := S2560x1280) hz]
  rfl

/-- Case C, the output block: the accumulator just stored is read back and stored through tanh with the bias. -/
theorem piece_C_out (hc0 : ¬cond0_0 i) (hc1 : cond0_1 i) :
    out0_C_3 (F := F) c i arg2 harg2 arg3 harg3 arg4 harg4 arg5 harg5 arg6 harg6 hc0 hc1 x0 x1 x2 xs0
      = k0_pay3 (k0_pay2 (xslice i x0) xs0 x1) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S256x1280) hz, View.readCov_unit_zero (S := S256x1280) _ hz]
  simp only [View.readAt_eq_ld, harg2.read_unread, harg3.read_unread, harg4.read_unread, harg6.read_unread,
    View.ld_unit_zero (S := S256x1280) hz, View.ld_unit_zero (S := S2560x1280) hz, View.ld_unit_zero (S := S1x1280) hz]
  rfl

end AnyInstance

/-! ## The payloads at an index, over the extended reals -/

section AtIdeal

/-- The slice's column offset as a number: below 8 * 2560 the 32-bit product does not wrap. -/
theorem off_col (n : Fin 8) :
    (Scalar.indexCast (Scalar.muli (BitVec.ofNat 32 n.val) 2560#32) : Index).toNat = n.val * 2560 := by
  fin_cases n <;> rfl

theorem k0_off1_0 (i : grid0.Coords) : k0_off1 i 0 = 0 := rfl
theorem k0_off1_1 (i : grid0.Coords) : k0_off1 i 1 = (i 1).val * 2560 := off_col (i 1)

/-- The slice at an index is the left operand at the column the point's offset names. -/
theorem xslice_apply (i : grid0.Coords) (x0 : Vec Ideal S256x20480 .bf16) (col : Fin 2560 → Fin 20480)
    (hcol : ∀ kk, (col kk).val = (i 1).val * 2560 + kk.val) (b : Fin 256) (kk : Fin 2560) :
    xslice i x0 (ix2 b kk) = x0 (ix2 b (col kk)) := by
  unfold xslice
  refine congrArg x0 (funext fun a => Fin.ext ?_)
  match a with
  | ⟨0, _⟩ => show k0_off1 i 0 + 1 * b.val = b.val; rw [k0_off1_0]; omega
  | ⟨1, _⟩ => show k0_off1 i 1 + 1 * kk.val = (col kk).val; rw [k0_off1_1, hcol]; omega

/-- The left factor's row is the result's row. -/
theorem lhs_dot_0 (j : S256x1280.Idx) (k : dot_S256x2560_S2560x1280_S256x1280_1_0_0_1_n_n.contr.Idx) :
    (dot_S256x2560_S2560x1280_S256x1280_1_0_0_1_n_n.lhsIdx j k 0).val = (j 0).val := by
  simp [DotDims.lhsIdx, dot_S256x2560_S2560x1280_S256x1280_1_0_0_1_n_n]; rfl

/-- The left factor's column is the contracted coordinate. -/
theorem lhs_dot_1 (j : S256x1280.Idx) (k : dot_S256x2560_S2560x1280_S256x1280_1_0_0_1_n_n.contr.Idx) :
    (dot_S256x2560_S2560x1280_S256x1280_1_0_0_1_n_n.lhsIdx j k 1).val = (k ⟨0, by decide⟩).val :=
  dot_S256x2560_S2560x1280_S256x1280_1_0_0_1_n_n.lhsIdx_val_of_single rfl j k

/-- The right factor's row is the contracted coordinate. -/
theorem rhs_dot_0 (j : S256x1280.Idx) (k : dot_S256x2560_S2560x1280_S256x1280_1_0_0_1_n_n.contr.Idx) :
    (dot_S256x2560_S2560x1280_S256x1280_1_0_0_1_n_n.rhsIdx j k 0).val = (k ⟨0, by decide⟩).val :=
  dot_S256x2560_S2560x1280_S256x1280_1_0_0_1_n_n.rhsIdx_val_of_single rfl j k

/-- The right factor's column is the result's column. -/
theorem rhs_dot_1 (j : S256x1280.Idx) (k : dot_S256x2560_S2560x1280_S256x1280_1_0_0_1_n_n.contr.Idx) :
    (dot_S256x2560_S2560x1280_S256x1280_1_0_0_1_n_n.rhsIdx j k 1).val = (j 1).val := by
  simp [DotDims.rhsIdx, dot_S256x2560_S2560x1280_S256x1280_1_0_0_1_n_n]; rfl

/-- The block product into the zero accumulator, at row `b` and column `cc`: the sum over the 2560 contracted
    coordinates of the products of the entries. -/
theorem matmul_zero_apply (l : FVec Ideal S256x2560 .bf16) (r : FVec Ideal S2560x1280 .bf16) (b : Fin 256) (cc : Fin 1280) :
    (matmul (F := Ideal) dot_S256x2560_S2560x1280_S256x1280_1_0_0_1_n_n none l r
        (constant (F := Ideal) S256x1280 .f32 0x00000000#32) (ix2 b cc) : EReal)
      = ∑ kk : Fin 2560, (l (ix2 b kk) : EReal) * (r (ix2 kk cc) : EReal) := by
  refine (Ideal.matmul_constant_zero_apply dot_S256x2560_S2560x1280_S256x1280_1_0_0_1_n_n none l r (ix2 b cc)).trans ?_
  rw [← Equiv.sum_comp (contrEquiv1 dot_S256x2560_S2560x1280_S256x1280_1_0_0_1_n_n 2560 rfl rfl).symm]
  refine Finset.sum_congr rfl fun kk _ => ?_
  have hk := contrEquiv1_symm_val dot_S256x2560_S2560x1280_S256x1280_1_0_0_1_n_n 2560 rfl rfl kk
  have hl : dot_S256x2560_S2560x1280_S256x1280_1_0_0_1_n_n.lhsIdx (ix2 b cc)
      ((contrEquiv1 dot_S256x2560_S2560x1280_S256x1280_1_0_0_1_n_n 2560 rfl rfl).symm kk) = ix2 b kk := by
    funext a; apply Fin.ext
    match a with
    | ⟨0, _⟩ => exact lhs_dot_0 _ _
    | ⟨1, _⟩ => exact (lhs_dot_1 _ _).trans hk
  have hr : dot_S256x2560_S2560x1280_S256x1280_1_0_0_1_n_n.rhsIdx (ix2 b cc)
      ((contrEquiv1 dot_S256x2560_S2560x1280_S256x1280_1_0_0_1_n_n 2560 rfl rfl).symm kk) = ix2 kk cc := by
    funext a; apply Fin.ext
    match a with
    | ⟨0, _⟩ => exact (rhs_dot_0 _ _).trans hk
    | ⟨1, _⟩ => exact rhs_dot_1 _ _
  rw [hl, hr]

/-- The reset payload is zero everywhere. -/
theorem pay1_apply (b : Fin 256) (cc : Fin 1280) : (k0_pay1 (F := Ideal) (ix2 b cc) : EReal) = 0 := by
  unfold k0_pay1
  simp only [shapeCast_self]
  exact Ideal.ofBits_zero_f32

/-- The accumulating payload at an index: what the accumulator held plus the block product. -/
theorem pay2_apply (v6 : Vec Ideal S256x2560 .bf16) (v8 : Vec Ideal S256x1280 .f32) (v9 : Vec Ideal S2560x1280 .bf16)
    (b : Fin 256) (cc : Fin 1280) :
    (k0_pay2 (F := Ideal) v6 v8 v9 (ix2 b cc) : EReal)
      = (v8 (ix2 b cc) : EReal) + ∑ kk : Fin 2560, (v6 (ix2 b kk) : EReal) * (v9 (ix2 kk cc) : EReal) := by
  unfold k0_pay2
  simp only [shapeCast_self]
  exact congrArg ((v8 (ix2 b cc) : EReal) + ·) (matmul_zero_apply v6 v9 b cc)

/-- The storing payload at an index: tanh of the accumulator plus the bias of the column. -/
theorem pay3_apply (v19 : Vec Ideal S256x1280 .f32) (v20 : Vec Ideal S1x1280 .f32) (b : Fin 256) (cc : Fin 1280) :
    (k0_pay3 (F := Ideal) v19 v20 (ix2 b cc) : EReal)
      = Ideal.tanh ((v19 (ix2 b cc) : EReal) + (v20 (ix2 (0 : Fin 1) cc) : EReal)) := by
  unfold k0_pay3
  simp only [shapeCast_self]
  have hbc : broadcastTo S256x1280 v20 broadcasts_S1x1280_S256x1280 (ix2 b cc) = v20 (ix2 (0 : Fin 1) cc) :=
    broadcastTo_apply v20 broadcasts_S1x1280_S256x1280 (ix2 b cc) (ix2 (0 : Fin 1) cc) fun a => by
      match a with
      | ⟨0, _⟩ => rfl
      | ⟨1, _⟩ => rfl
  exact congrArg (fun z : EReal => Ideal.tanh ((v19 (ix2 b cc) : EReal) + z)) hbc

/-- The block product of the point's slice is the product over the columns the slice names. -/
theorem slice_sum (i : grid0.Coords) (x0 : Vec Ideal S256x20480 .bf16) (x1 : Vec Ideal S2560x1280 .bf16)
    (col : Fin 2560 → Fin 20480) (hcol : ∀ kk, (col kk).val = (i 1).val * 2560 + kk.val) (b : Fin 256) (cc : Fin 1280) :
    (∑ kk : Fin 2560, (xslice i x0 (ix2 b kk) : EReal) * (x1 (ix2 kk cc) : EReal)) = prod x0 x1 col b cc :=
  Finset.sum_congr rfl fun kk _ => by rw [xslice_apply i x0 col hcol b kk]

end AtIdeal

variable (c : Dev nD) (i : grid0.Coords)
  (arg2 : Memref sig .tc .vmem S256x20480 .bf16) (harg2 : arg2.IsWhole)
  (arg3 : Memref sig .tc .vmem S2560x1280 .bf16) (harg3 : arg3.IsWhole)
  (arg4 : Memref sig .tc .vmem S1x1280 .f32) (harg4 : arg4.IsWhole)
  (arg5 : Memref sig .tc .vmem S256x1280 .f32) (harg5 : arg5.IsWhole)
  (arg6 : Memref sig .tc .vmem S256x1280 .f32) (harg6 : arg6.IsWhole)
  (x0 : Vec Ideal S256x20480 .bf16) (x1 : Vec Ideal S2560x1280 .bf16) (x2 : Vec Ideal S1x1280 .f32)
  (xs0 : Vec Ideal S256x1280 .f32)
  (col : Fin 2560 → Fin 20480) (hcol : ∀ kk, (col kk).val = (i 1).val * 2560 + kk.val)
  (b : Fin 256) (cc : Fin 1280)
include hcol

/-- First point of a column block: the accumulator is reset to zero, then the product is added. -/
theorem sout_A_apply (hc0 : cond0_0 i) (hc1 : ¬cond0_1 i) :
    (sout0_A_0 (F := Ideal) c i arg2 harg2 arg3 harg3 arg4 harg4 arg5 harg5 arg6 harg6 hc0 hc1 x0 x1 x2 (ix2 b cc) : EReal)
      = prod x0 x1 col b cc := by
  refine (congrFun (piece_A (F := Ideal) c i arg2 harg2 arg3 harg3 arg4 harg4 arg5 harg5 arg6 harg6 x0 x1 x2 hc0 hc1) (ix2 b cc)).trans ?_
  refine (pay2_apply (xslice i x0) (k0_pay1 (F := Ideal)) x1 b cc).trans ?_
  rw [pay1_apply b cc, zero_add]
  exact slice_sum i x0 x1 col hcol b cc

/-- A middle point: the product is added to what the point before left. -/
theorem sout_B_apply (hc0 : ¬cond0_0 i) (hc1 : ¬cond0_1 i) :
    (sout0_B_0 (F := Ideal) c i arg2 harg2 arg3 harg3 arg4 harg4 arg5 harg5 arg6 harg6 hc0 hc1 x0 x1 x2 xs0 (ix2 b cc) : EReal)
      = (xs0 (ix2 b cc) : EReal) + prod x0 x1 col b cc := by
  refine (congrFun (piece_B (F := Ideal) c i arg2 harg2 arg3 harg3 arg4 harg4 arg5 harg5 arg6 harg6 x0 x1 x2 xs0 hc0 hc1) (ix2 b cc)).trans ?_
  refine (pay2_apply (xslice i x0) xs0 x1 b cc).trans ?_
  exact congrArg ((xs0 (ix2 b cc) : EReal) + ·) (slice_sum i x0 x1 col hcol b cc)

/-- The last point: the same for the accumulator, -/
theorem sout_C_apply (hc0 : ¬cond0_0 i) (hc1 : cond0_1 i) :
    (sout0_C_0 (F := Ideal) c i arg2 harg2 arg3 harg3 arg4 harg4 arg5 harg5 arg6 harg6 hc0 hc1 x0 x1 x2 xs0 (ix2 b cc) : EReal)
      = (xs0 (ix2 b cc) : EReal) + prod x0 x1 col b cc := by
  refine (congrFun (piece_C (F := Ideal) c i arg2 harg2 arg3 harg3 arg4 harg4 arg5 harg5 arg6 harg6 x0 x1 x2 xs0 hc0 hc1) (ix2 b cc)).trans ?_
  refine (pay2_apply (xslice i x0) xs0 x1 b cc).trans ?_
  exact congrArg ((xs0 (ix2 b cc) : EReal) + ·) (slice_sum i x0 x1 col hcol b cc)

/-- and the output block is tanh (accumulator + bias). -/
theorem out_C_apply (hc0 : ¬cond0_0 i) (hc1 : cond0_1 i) :
    (out0_C_3 (F := Ideal) c i arg2 harg2 arg3 harg3 arg4 harg4 arg5 harg5 arg6 harg6 hc0 hc1 x0 x1 x2 xs0 (ix2 b cc) : EReal)
      = Ideal.tanh (((xs0 (ix2 b cc) : EReal) + prod x0 x1 col b cc) + (x2 (ix2 (0 : Fin 1) cc) : EReal)) := by
  refine (congrFun (piece_C_out (F := Ideal) c i arg2 harg2 arg3 harg3 arg4 harg4 arg5 harg5 arg6 harg6 x0 x1 x2 xs0 hc0 hc1) (ix2 b cc)).trans ?_
  refine (pay3_apply (k0_pay2 (F := Ideal) (xslice i x0) xs0 x1) x2 b cc).trans ?_
  refine congrArg (fun z : EReal => Ideal.tanh (z + (x2 (ix2 (0 : Fin 1) cc) : EReal))) ?_
  refine (pay2_apply (xslice i x0) xs0 x1 b cc).trans ?_
  exact congrArg ((xs0 (ix2 b cc) : EReal) + ·) (slice_sum i x0 x1 col hcol b cc)

end Cert.Pieces

end
-- ==== Proof.KerHost.lean ====
/-
  The arrays the matrix-product region finds: the activations padded with zero columns, the edge
  weights added into a dense matrix, and the bias padded with zeros — each read at an index.
-/
import proofs.«406503_j17016660427206_2_alg».proof.Proof.Gen.KernelIdeal.Frame
import proofs.«406503_j17016660427206_2_alg».proof.Proof.EdgeSum
import Idealize.ShloMosaic.Lib.Pipeline.Value
import Idealize.ShloMosaic.Lib.ValueIdx
import Idealize.ShloMosaic.Lib.ValueIdxRank1
import Idealize.ShloMosaic.Lib.ValueLayout
import Idealize.ShloMosaic.Lib.StableHlo.Run
import Idealize.ShloMosaic.Lib.StableHlo.Predicate
import Idealize.ShloMosaic.Lib.KernelVsHost
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KerHost

open Cert.KernelIdeal Cert.KernelIdeal.Gen

variable (m : (ℓ : Loc nD τ sig) → Buf (Elt Ideal) ℓ)

/-- The program's arguments on core `c`. -/
abbrev argX (c : Dev nD) : S256x20000.Idx → EReal := m ((c : Thread nD τ).loc main_arg0)
abbrev argSrc (c : Dev nD) : S1000000.Idx → BitVec 32 := m ((c : Thread nD τ).loc main_arg1)
abbrev argDst (c : Dev nD) : S1000000.Idx → BitVec 32 := m ((c : Thread nD τ).loc main_arg2)
abbrev argW (c : Dev nD) : S1000000.Idx → EReal := m ((c : Thread nD τ).loc main_arg3)
abbrev argBias (c : Dev nD) : S5000.Idx → EReal := m ((c : Thread nD τ).loc main_arg4)

/-- The three arrays the region reads, as it finds them. -/
abbrev lhsArr (c : Dev nD) : S256x20480.Idx → EReal := V (F := Ideal) m c main_v17
abbrev rhsArr (c : Dev nD) : S20480x5120.Idx → EReal := V (F := Ideal) m c main_v15
abbrev biasArr (c : Dev nD) : S1x5120.Idx → EReal := V (F := Ideal) m c main_v19

/-- The padding value: the zero word converted to a float is zero. -/
theorem sitofp_zero_word :
    (sitofp (F := Ideal) .f32 (constantI S_ 32 0#32)) (Shape.Idx.first h_S_) = (0 : EReal) := by
  show ((((0#32 : BitVec 32).toInt : ℤ) : ℝ) : EReal) = 0
  simp

/-- The left operand as the host operations compute it: `x` padded on axis 1, its format changed. -/
theorem lhs_term (c : Dev nD) :
    (V (F := Ideal) m c main_v17 : S256x20480.Idx → EReal)
      = truncf (F := Ideal) .bf16
          (pad S256x20480 ![0, 0] ![0, 480] ![0, 0] (argX m c)
            (sitofp (F := Ideal) .f32 (constantI S_ 32 0#32)) pads_S256x20000_S256x20480_000_04800 h_S_)
          bitsLt_bf16_f32 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-- The left operand is `x` with 480 zero columns appended. -/
theorem lhs_apply (c : Dev nD) (b : Fin 256) (k : Fin 20480) :
    lhsArr m c (ix2 b k) = if h : k.val < 20000 then argX m c (ix2 b ⟨k.val, h⟩) else 0 := by
  show (V (F := Ideal) m c main_v17 : S256x20480.Idx → EReal) (ix2 b k) = _
  rw [lhs_term]
  -- a change of float format is the identity on extended reals
  show FloatOps.truncf (F := Ideal) .bf16 bitsLt_bf16_f32
    (pad S256x20480 ![0, 0] ![0, 480] ![0, 0] (argX m c)
      (sitofp (F := Ideal) .f32 (constantI S_ 32 0#32)) pads_S256x20000_S256x20480_000_04800 h_S_ (ix2 b k)) = _
  rw [Ideal.truncf_def]
  by_cases h : k.val < 20000
  · -- a column of `x`: the padded array reads `x` there
    rw [dif_pos h]
    refine pad_apply_of_inside _ _ _ _ _ _ _ (ix2 b k) (ix2 b ⟨k.val, h⟩) ?_
    intro a; fin_cases a <;> simp [ix2]
  · -- an appended column: the padding value, zero
    rw [dif_neg h]
    refine (pad_apply_of_not_inside _ _ _ _ _ _ _ (ix2 b k) (1 : Fin 2) ?_).trans sitofp_zero_word
    simp [ix2]; omega

/-! ## The right operand: the edge weights added into a dense matrix -/

/-- The scatter's dimension numbers: both operand axes are indexed, the index vector lies along axis 1. -/
abbrev scD : ScatterDims S20480x5120 S1000000x2 S1000000 := scatter_S20480x5120_S1000000x2_S1000000_n_01_01_1

/-- The source words as the host normalises them: a negative word counted from the end of the axis. -/
def srcN (c : Dev nD) : IVec S1000000 32 :=
  select (cmpi .slt (argSrc m c) (broadcastInDim S1000000 ![] bcast_S_S1000000 (constantI S_ 32 0#32)))
    (addi (argSrc m c) (broadcastInDim S1000000 ![] bcast_S_S1000000 (constantI S_ 32 20480#32))) (argSrc m c)
/-- The destination words, normalised likewise. -/
def dstN (c : Dev nD) : IVec S1000000 32 :=
  select (cmpi .slt (argDst m c) (broadcastInDim S1000000 ![] bcast_S_S1000000 (constantI S_ 32 0#32)))
    (addi (argDst m c) (broadcastInDim S1000000 ![] bcast_S_S1000000 (constantI S_ 32 5120#32))) (argDst m c)
/-- The scatter's index array: row `e` holds edge `e`'s source word and destination word. -/
def idx2 (c : Dev nD) : IVec S1000000x2 32 :=
  concatenate S1000000x2 1
    [⟨S1000000x1, broadcastInDim S1000000x1 ![0] bcast_S1000000_S1000000x1_0 (srcN m c)⟩,
     ⟨S1000000x1, broadcastInDim S1000000x1 ![0] bcast_S1000000_S1000000x1_0 (dstN m c)⟩]
    concatenates_S1000000x1_S1000000x1_S1000000x2_d1

/-- The right operand as the host operations compute it: the weights scattered, with addition, into a zero matrix
    at the rows of the index array, its format changed. -/
theorem rhs_term (c : Dev nD) :
    (V (F := Ideal) m c main_v15 : S20480x5120.Idx → EReal)
      = truncf (F := Ideal) .bf16
          (Host.scatterAdd (F := Ideal) scD
            (broadcastInDim S20480x5120 ![] bcast_S_S20480x5120 (constant (F := Ideal) S_ .f32 0x00000000#32))
            (idx2 m c) (argW m c))
          bitsLt_bf16_f32 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results_simp
  rfl

/-- A non-negative signed word is its own normalisation. -/
theorem norm_word (w n : BitVec 32) (h : 0 ≤ w.toInt) :
    Scalar.select (IntOp.cmpi .slt w 0#32) (IntOp.addi w n) w = w := by
  have hs : w.slt 0#32 = false := by
    simp [BitVec.slt]; omega
  simp [Scalar.select, IntOp.cmpi, hs]

/-- The window of update `e` starts, on operand axis 0, at the signed value of the word in row `e`, column 0. -/
theorem start0 (idx : IVec S1000000x2 32) (e : Fin 1000000) :
    scD.start (ix1 e) idx (0 : Fin 2) = (idx (ix2 e (0 : Fin 2))).toInt := by
  unfold ScatterDims.start
  rw [dif_pos (show (0 : Fin 2) ∈ scD.scatterDimsToOperandDims from List.mem_cons_self ..)]
  have hsi : scD.siIdx (ix1 e) ⟨List.idxOf (0 : Fin 2) scD.scatterDimsToOperandDims,
      List.idxOf_lt_length_iff.2 (List.mem_cons_self ..)⟩ = ix2 e (0 : Fin 2) := by
    funext b; refine Fin.ext ?_
    match b with
    | ⟨0, _⟩ => rfl
    | ⟨1, _⟩ => rfl
  rw [hsi]

/-- On operand axis 1 it starts at the signed value of the word in row `e`, column 1. -/
theorem start1 (idx : IVec S1000000x2 32) (e : Fin 1000000) :
    scD.start (ix1 e) idx (1 : Fin 2) = (idx (ix2 e (1 : Fin 2))).toInt := by
  unfold ScatterDims.start
  have hm : (1 : Fin 2) ∈ scD.scatterDimsToOperandDims := List.mem_cons_of_mem _ (List.mem_cons_self ..)
  rw [dif_pos hm]
  have hsi : scD.siIdx (ix1 e) ⟨List.idxOf (1 : Fin 2) scD.scatterDimsToOperandDims,
      List.idxOf_lt_length_iff.2 hm⟩ = ix2 e (1 : Fin 2) := by
    funext b; refine Fin.ext ?_
    match b with
    | ⟨0, _⟩ => rfl
    | ⟨1, _⟩ => rfl
  rw [hsi]

/-- Both operand axes are inserted window axes: the window has one element, at coordinate 0 on each. -/
theorem window_zero (u : S1000000.Idx) (a : Fin 2) : scD.window u a = 0 := by
  unfold ScatterDims.window
  rw [dif_neg]
  fin_cases a <;> decide

/-- Update `e` lands on entry `(k, j)` exactly when row `e` of the index array holds the words `k` and `j`. -/
theorem resultIdx_iff (idx : IVec S1000000x2 32) (e : Fin 1000000) (k : Fin 20480) (j : Fin 5120) :
    scD.resultIdx? (ix1 e) idx = some (ix2 k j)
      ↔ (idx (ix2 e (0 : Fin 2))).toInt = (k.val : ℤ) ∧ (idx (ix2 e (1 : Fin 2))).toInt = (j.val : ℤ) := by
  unfold ScatterDims.resultIdx?
  split
  · -- the update lands inside the operand: compare the landing index with (k, j) coordinate by coordinate
    rename_i h
    rw [Option.some.injEq]
    have h0 := h (0 : Fin 2)
    have h1 := h (1 : Fin 2)
    rw [start0, window_zero] at h0
    rw [start1, window_zero] at h1
    constructor
    · intro hf
      have e0 := congrArg (fun f => (f (0 : Fin 2)).val) hf
      have e1 := congrArg (fun f => (f (1 : Fin 2)).val) hf
      dsimp only at e0 e1
      rw [start0, window_zero] at e0
      rw [start1, window_zero] at e1
      have e0' : ((idx (ix2 e (0 : Fin 2))).toInt + ((0 : ℕ) : ℤ)).toNat = k.val := e0
      have e1' : ((idx (ix2 e (1 : Fin 2))).toInt + ((0 : ℕ) : ℤ)).toNat = j.val := e1
      omega
    · rintro ⟨g0, g1⟩
      funext a; refine Fin.ext ?_
      match a with
      | ⟨0, _⟩ =>
        show (scD.start (ix1 e) idx (0 : Fin 2) + (scD.window (ix1 e) (0 : Fin 2) : ℤ)).toNat = k.val
        rw [start0, window_zero, g0]; simp
      | ⟨1, _⟩ =>
        show (scD.start (ix1 e) idx (1 : Fin 2) + (scD.window (ix1 e) (1 : Fin 2) : ℤ)).toNat = j.val
        rw [start1, window_zero, g1]; simp
  · -- the update is dropped: then its words are not (k, j), which is inside the operand
    rename_i h
    constructor
    · intro hf; cases hf
    · rintro ⟨g0, g1⟩
      exfalso; apply h
      intro a
      have hk := k.isLt
      have hj := j.isLt
      match a with
      | ⟨0, _⟩ =>
        show 0 ≤ scD.start (ix1 e) idx (0 : Fin 2) + (scD.window (ix1 e) (0 : Fin 2) : ℤ)
          ∧ scD.start (ix1 e) idx (0 : Fin 2) + (scD.window (ix1 e) (0 : Fin 2) : ℤ) < ((20480 : ℕ) : ℤ)
        rw [start0, window_zero, g0]; omega
      | ⟨1, _⟩ =>
        show 0 ≤ scD.start (ix1 e) idx (1 : Fin 2) + (scD.window (ix1 e) (1 : Fin 2) : ℤ)
          ∧ scD.start (ix1 e) idx (1 : Fin 2) + (scD.window (ix1 e) (1 : Fin 2) : ℤ) < ((5120 : ℕ) : ℤ)
        rw [start1, window_zero, g1]; omega

/-- Column 0 of the index array is the source word: non-negative, so its own normalisation. -/
theorem idx2_src (c : Dev nD) (hsrc : ∀ i, 0 ≤ (argSrc m c i).toInt) (e : Fin 1000000) :
    idx2 m c (ix2 e (0 : Fin 2)) = argSrc m c (ix1 e) := by
  unfold idx2
  refine (concatenate_pair_apply_left (t := S1000000x2) (s₁ := S1000000x1) (s₂ := S1000000x1) (1 : Fin 2) _ _
    concatenates_S1000000x1_S1000000x1_S1000000x2_d1
    (ix2 e (0 : Fin 2)) rfl (ix2 e (0 : Fin 1)) ?_).trans ?_
  · intro b; fin_cases b <;> rfl
  refine (broadcastInDim_apply (s := S1000000) (t := S1000000x1) ![0] bcast_S1000000_S1000000x1_0 (srcN m c)
    (ix2 e (0 : Fin 1)) (ix1 e) ?_).trans ?_
  · intro a
    fin_cases a
    show e.val = if (1000000 : ℕ) = 1 then 0 else e.val
    rw [if_neg (by omega)]
  show Scalar.select (IntOp.cmpi .slt (argSrc m c (ix1 e)) 0#32)
    (IntOp.addi (argSrc m c (ix1 e)) 20480#32) (argSrc m c (ix1 e)) = _
  exact norm_word _ _ (hsrc _)

/-- Column 1 of the index array is the destination word. -/
theorem idx2_dst (c : Dev nD) (hdst : ∀ i, 0 ≤ (argDst m c i).toInt) (e : Fin 1000000) :
    idx2 m c (ix2 e (1 : Fin 2)) = argDst m c (ix1 e) := by
  unfold idx2
  refine (concatenate_pair_apply_right (t := S1000000x2) (s₁ := S1000000x1) (s₂ := S1000000x1) (1 : Fin 2) _ _
    concatenates_S1000000x1_S1000000x1_S1000000x2_d1
    (ix2 e (1 : Fin 2)) rfl rfl (ix2 e (0 : Fin 1)) ?_ ?_).trans ?_
  · intro b hb
    fin_cases b
    · rfl
    · exact absurd rfl hb
  · rfl
  refine (broadcastInDim_apply (s := S1000000) (t := S1000000x1) ![0] bcast_S1000000_S1000000x1_0 (dstN m c)
    (ix2 e (0 : Fin 1)) (ix1 e) ?_).trans ?_
  · intro a
    fin_cases a
    show e.val = if (1000000 : ℕ) = 1 then 0 else e.val
    rw [if_neg (by omega)]
  show Scalar.select (IntOp.cmpi .slt (argDst m c (ix1 e)) 0#32)
    (IntOp.addi (argDst m c (ix1 e)) 5120#32) (argDst m c (ix1 e)) = _
  exact norm_word _ _ (hdst _)

/-- The host's accumulating scatter at an entry: the operand's entry plus the updates that land on it. -/
theorem scatterAdd_apply {s si su : Shape} {w : Nat} (d : ScatterDims s si su) (x : FVec Ideal s .f32)
    (idx : IVec si w) (upd : FVec Ideal su .f32) (i : s.Idx) :
    Host.scatterAdd (F := Ideal) d x idx upd i
      = x i + ∑ u ∈ Finset.univ.filter (fun u => d.resultIdx? u idx = some i), upd u := rfl

/-- A splat of the zero pattern reads zero everywhere. -/
theorem zeros_apply {T : Shape} (h : S_.BroadcastsInDim T ![]) (i : T.Idx) :
    broadcastInDim T ![] h (constant (F := Ideal) S_ .f32 0x00000000#32) i = (0 : EReal) :=
  Ideal.ofBits_zero_f32

/-- A filtered sum over a rank-1 index set is the filtered sum over its coordinate range. -/
theorem sum_filter_idx1 {n : Nat} (P : (⟨1, ![n]⟩ : Shape).Idx → Prop) {dP : DecidablePred P}
    (Q : Fin n → Prop) {dQ : DecidablePred Q} (f : (⟨1, ![n]⟩ : Shape).Idx → EReal)
    (hPQ : ∀ e, P (ix1 e) ↔ Q e) :
    ∑ u ∈ Finset.univ.filter P, f u = ∑ e ∈ Finset.univ.filter Q, f (ix1 e) := by
  refine Finset.sum_equiv (idxEquiv1 (n := n)) ?_ ?_
  · intro u
    obtain ⟨e, rfl⟩ : ∃ e : Fin n, u = ix1 e := ⟨u 0, eq_ix1 u⟩
    simp only [Finset.mem_filter, Finset.mem_univ, true_and]
    exact hPQ e
  · intro u _
    rw [eq_ix1 u]
    rfl

/-- The right operand at (k, j) is the sum of the weights of the edges from source k to destination j, when every
    source word is a unit of the input and every destination word is non-negative. -/
theorem rhs_apply (c : Dev nD)
    (hsrc : ∀ i, 0 ≤ (argSrc m c i).toInt ∧ (argSrc m c i).toInt < 20000) (hdst : ∀ i, 0 ≤ (argDst m c i).toInt)
    (k : Fin 20480) (j : Fin 5120) :
    rhsArr m c (ix2 k j)
      = ∑ e ∈ Finset.univ.filter (fun e : Fin 1000000 =>
          (argSrc m c (ix1 e)).toInt = (k.val : ℤ) ∧ (argDst m c (ix1 e)).toInt = (j.val : ℤ)), argW m c (ix1 e) := by
  show (V (F := Ideal) m c main_v15 : S20480x5120.Idx → EReal) (ix2 k j) = _
  -- the format change is the identity, the zero matrix contributes nothing, and what is left is the sum of the
  -- weights of the updates that land on (k, j)
  rw [rhs_term, truncf_apply, scatterAdd_apply, zeros_apply, zero_add]
  -- re-index the updates by the edge number; an edge lands on (k, j) exactly when its words are k and j
  refine sum_filter_idx1 _ _ _ (fun e => ?_)
  beta_reduce
  rw [resultIdx_iff, idx2_src m c (fun i => (hsrc i).1), idx2_dst m c hdst]

/-- The bias row as the host operations compute it: `bias` padded, then laid out as one row. -/
theorem bias_term (c : Dev nD) :
    (V (F := Ideal) m c main_v19 : S1x5120.Idx → EReal)
      = shapeCast S1x5120
          (pad S5120 ![0] ![120] ![0] (argBias m c)
            (sitofp (F := Ideal) .f32 (constantI S_ 32 0#32)) pads_S5000_S5120_01200 h_S_)
          shapeCasts_S5120_S1x5120 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-- The bias row is `bias` with 120 zeros appended. -/
theorem bias_apply (c : Dev nD) (j : Fin 5120) :
    biasArr m c (ix2 (0 : Fin 1) j) = if h : j.val < 5000 then argBias m c (ix1 ⟨j.val, h⟩) else 0 := by
  show (V (F := Ideal) m c main_v19 : S1x5120.Idx → EReal) (ix2 (0 : Fin 1) j) = _
  rw [bias_term]
  -- entry (0, j) of the one-row layout is entry j of the vector: the same row-major position
  rw [shapeCast_apply _ shapeCasts_S5120_S1x5120 (ix2 (0 : Fin 1) j) (ix1 j) (by
    rw [Shape.rowMajor_val_one, Shape.rowMajor_val_two]; simp [ix1, ix2])]
  by_cases h : j.val < 5000
  · rw [dif_pos h]
    refine pad_apply_of_inside _ _ _ _ _ _ _ (ix1 j) (ix1 ⟨j.val, h⟩) ?_
    intro a; fin_cases a <;> simp [ix1]
  · rw [dif_neg h]
    refine (pad_apply_of_not_inside _ _ _ _ _ _ _ (ix1 j) (0 : Fin 1) ?_).trans sitofp_zero_word
    simp [ix1]; omega

end Cert.KerHost

end
-- ==== Proof.Accum.lean ====
/-
  The matrix-product region as one function of the arrays it reads: after the eight points of a
  column block the accumulator holds the full product over all 20480 columns of the left operand,
  and the block written back is tanh (product + bias); the four column blocks tile the result.
-/
import proofs.«406503_j17016660427206_2_alg».proof.Proof.Pieces
import proofs.«406503_j17016660427206_2_alg».proof.Proof.KerHost
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Accum

open Cert.KernelIdeal Cert.KernelIdeal.Gen Cert.KerHost

variable (m : (ℓ : Loc nD τ sig) → Buf (Elt Ideal) ℓ)

/-- The region's result array, after the run. -/
abbrev outArr (c : Dev nD) : S256x5120.Idx → EReal := (dats (F := Ideal) m 0 c).arrAt 3 cfg0.N

/-! ## Where each window's block sits at a point

The grid is 4 column blocks by 8 slices; point `t` is slice `t % 8` of column block `t / 8`. -/

/-- The windows' block indices at every point, and the slice coordinate, in closed form. -/
theorem idx_facts : ∀ t : Fin cfg0.N, win0_0.index t (0 : Fin 2) = 0 ∧ win0_0.index t (1 : Fin 2) = 0
    ∧ win0_1.index t (0 : Fin 2) = t.val % 8 ∧ win0_1.index t (1 : Fin 2) = t.val / 8
    ∧ win0_2.index t (0 : Fin 2) = 0 ∧ win0_2.index t (1 : Fin 2) = t.val / 8
    ∧ win0_3.index t (0 : Fin 2) = 0 ∧ win0_3.index t (1 : Fin 2) = t.val / 8
    ∧ (grid0.coords t 1).val = t.val % 8 :=
  (by decide +kernel : ∀ t : Fin grid0.N, _)

/-- Window 0's block is its whole array at every point. -/
theorem readL (t : Fin cfg0.N) (A : S256x20480.Idx → EReal) (b : Fin 256) (k : Fin 20480) :
    ((cfg0.win 0).blk t).view.read (Elt Ideal) A (ix2 b k) = A (ix2 b k) := by
  obtain ⟨e0, e1, -⟩ := idx_facts t
  rw [View.read_apply]
  show A _ = A _
  refine congrArg A ?_
  funext a
  apply Fin.ext
  match a with
  | ⟨0, _⟩ => show win0_0.index t (0 : Fin 2) * 256 + 1 * b.val = b.val; rw [e0]; omega
  | ⟨1, _⟩ => show win0_0.index t (1 : Fin 2) * 20480 + 1 * k.val = k.val; rw [e1]; omega

/-- Window 1's block at point `t` is rows `(t % 8) * 2560 …` and columns `(t / 8) * 1280 …` of its array. -/
theorem readR (t : Fin cfg0.N) (A : S20480x5120.Idx → EReal) (kk : Fin 2560) (cc : Fin 1280) (k : Fin 20480) (j : Fin 5120)
    (hk : k.val = t.val % 8 * 2560 + kk.val) (hj : j.val = t.val / 8 * 1280 + cc.val) :
    ((cfg0.win 1).blk t).view.read (Elt Ideal) A (ix2 kk cc) = A (ix2 k j) := by
  obtain ⟨-, -, e0, e1, -⟩ := idx_facts t
  rw [View.read_apply]
  show A _ = A _
  refine congrArg A ?_
  funext a
  apply Fin.ext
  match a with
  | ⟨0, _⟩ => show win0_1.index t (0 : Fin 2) * 2560 + 1 * kk.val = k.val; rw [e0, hk]; omega
  | ⟨1, _⟩ => show win0_1.index t (1 : Fin 2) * 1280 + 1 * cc.val = j.val; rw [e1, hj]; omega

/-- Window 2's block at point `t` is columns `(t / 8) * 1280 …` of its one row. -/
theorem readB (t : Fin cfg0.N) (A : S1x5120.Idx → EReal) (cc : Fin 1280) (j : Fin 5120)
    (hj : j.val = t.val / 8 * 1280 + cc.val) :
    ((cfg0.win 2).blk t).view.read (Elt Ideal) A (ix2 (0 : Fin 1) cc) = A (ix2 (0 : Fin 1) j) := by
  obtain ⟨-, -, -, -, e0, e1, -⟩ := idx_facts t
  rw [View.read_apply]
  show A _ = A _
  refine congrArg A ?_
  funext a
  apply Fin.ext
  match a with
  | ⟨0, _⟩ => show win0_2.index t (0 : Fin 2) * 1 + 1 * 0 = 0; rw [e0]
  | ⟨1, _⟩ => show win0_2.index t (1 : Fin 2) * 1280 + 1 * cc.val = j.val; rw [e1, hj]; omega

/-- Window 3's block at point `t` is columns `(t / 8) * 1280 …` of its array, all rows. -/
theorem readO (t : Fin cfg0.N) (A : S256x5120.Idx → EReal) (b : Fin 256) (cc : Fin 1280) (j : Fin 5120)
    (hj : j.val = t.val / 8 * 1280 + cc.val) :
    ((cfg0.win 3).blk t).view.read (Elt Ideal) A (ix2 b cc) = A (ix2 b j) := by
  obtain ⟨-, -, -, -, -, -, e0, e1, -⟩ := idx_facts t
  rw [View.read_apply]
  show A _ = A _
  refine congrArg A ?_
  funext a
  apply Fin.ext
  match a with
  | ⟨0, _⟩ => show win0_3.index t (0 : Fin 2) * 256 + 1 * b.val = b.val; rw [e0]; omega
  | ⟨1, _⟩ => show win0_3.index t (1 : Fin 2) * 1280 + 1 * cc.val = j.val; rw [e1, hj]; omega

/-- The three input blocks at a point, each at its literal type. -/
abbrev blkL (c : Dev nD) (t : Fin cfg0.N) : Vec Ideal S256x20480 .bf16 := iblk (F := Ideal) m c 0 t
abbrev blkR (c : Dev nD) (t : Fin cfg0.N) : Vec Ideal S2560x1280 .bf16 := iblk (F := Ideal) m c 1 t
abbrev blkB (c : Dev nD) (t : Fin cfg0.N) : Vec Ideal S1x1280 .f32 := iblk (F := Ideal) m c 2 t

/-- The left block is the whole left operand at every point. -/
theorem blkL_apply (c : Dev nD) (t : Fin cfg0.N) (b : Fin 256) (k : Fin 20480) :
    (blkL m c t (ix2 b k) : EReal) = lhsArr m c (ix2 b k) :=
  readL t (lhsArr m c) b k

/-- The right block at point `t` is rows `(t % 8) * 2560 …` and columns `(t / 8) * 1280 …` of the right operand. -/
theorem blkR_apply (c : Dev nD) (t : Fin cfg0.N) (kk : Fin 2560) (cc : Fin 1280) (k : Fin 20480) (j : Fin 5120)
    (hk : k.val = t.val % 8 * 2560 + kk.val) (hj : j.val = t.val / 8 * 1280 + cc.val) :
    (blkR m c t (ix2 kk cc) : EReal) = rhsArr m c (ix2 k j) :=
  readR t (rhsArr m c) kk cc k j hk hj

/-- The bias block at point `t` is columns `(t / 8) * 1280 …` of the bias row. -/
theorem blkB_apply (c : Dev nD) (t : Fin cfg0.N) (cc : Fin 1280) (j : Fin 5120)
    (hj : j.val = t.val / 8 * 1280 + cc.val) :
    (blkB m c t (ix2 (0 : Fin 1) cc) : EReal) = biasArr m c (ix2 (0 : Fin 1) j) :=
  readB t (biasArr m c) cc j hj

/-! ## The accumulator after each point -/

/-- The `k`-th term of the product at row `b` and column `j` (nothing past the left operand's last column). -/
def term (c : Dev nD) (b : Fin 256) (j : Fin 5120) (k : ℕ) : EReal :=
  if h : k < 20480 then lhsArr m c (ix2 b ⟨k, h⟩) * rhsArr m c (ix2 ⟨k, h⟩ j) else 0

/-- The columns of the left operand that point `t` multiplies: slice `t % 8`. -/
def colAt (t : Fin cfg0.N) (kk : Fin 2560) : Fin 20480 :=
  ⟨t.val % 8 * 2560 + kk.val, by have := kk.isLt; omega⟩

theorem colAt_val (t : Fin cfg0.N) (kk : Fin 2560) :
    (colAt t kk).val = (grid0.coords t 1).val * 2560 + kk.val := by
  obtain ⟨-, -, -, -, -, -, -, -, e⟩ := idx_facts t
  rw [e]; rfl

/-- What point `t` adds at row `b`, column `cc` of its column block: the terms `(t % 8) * 2560 …` of the
    product at column `(t / 8) * 1280 + cc`. -/
theorem prod_eq (c : Dev nD) (t : Fin cfg0.N) (b : Fin 256) (cc : Fin 1280) (j : Fin 5120)
    (hj : j.val = t.val / 8 * 1280 + cc.val) :
    Cert.Pieces.prod (blkL m c t) (blkR m c t) (colAt t) b cc
      = ∑ x ∈ Finset.range 2560, term m c b j (t.val % 8 * 2560 + x) := by
  unfold Cert.Pieces.prod
  rw [Finset.sum_range]
  refine Finset.sum_congr rfl fun kk _ => ?_
  have hlt : t.val % 8 * 2560 + kk.val < 20480 := by have := kk.isLt; omega
  unfold term
  rw [dif_pos hlt, blkL_apply m c t b (colAt t kk), blkR_apply m c t kk cc (colAt t kk) j rfl hj]
  rfl

/-- The same, the point given by its position. -/
theorem prod_eq' (c : Dev nD) (n : ℕ) (h : n < cfg0.N) (b : Fin 256) (cc : Fin 1280) (j : Fin 5120)
    (hj : j.val = n / 8 * 1280 + cc.val) :
    Cert.Pieces.prod (blkL m c ⟨n, h⟩) (blkR m c ⟨n, h⟩) (colAt ⟨n, h⟩) b cc
      = ∑ x ∈ Finset.range 2560, term m c b j (n % 8 * 2560 + x) :=
  prod_eq m c ⟨n, h⟩ b cc j hj

/-- Splitting off the last slice of a partial product. -/
theorem term_split (c : Dev nD) (b : Fin 256) (j : Fin 5120) (s : ℕ) :
    ∑ k ∈ Finset.range ((s + 1) * 2560), term m c b j k
      = ∑ k ∈ Finset.range (s * 2560), term m c b j k + ∑ x ∈ Finset.range 2560, term m c b j (s * 2560 + x) := by
  rw [show (s + 1) * 2560 = s * 2560 + 2560 from by omega, Finset.sum_range_add]

/-- The full partial product is the product over all columns of the left operand. -/
theorem term_full (c : Dev nD) (b : Fin 256) (j : Fin 5120) :
    ∑ k ∈ Finset.range ((7 + 1) * 2560), term m c b j k = ∑ k : Fin 20480, lhsArr m c (ix2 b k) * rhsArr m c (ix2 k j) := by
  rw [show (7 + 1) * 2560 = 20480 from rfl, Finset.sum_range]
  refine Finset.sum_congr rfl fun k _ => ?_
  unfold term
  rw [dif_pos k.isLt]

/-- THE INVARIANT. After point `n` the accumulator holds, at row `b` and column `cc`, the first `(n % 8 + 1) * 2560`
    terms of the product at column `(n / 8) * 1280 + cc`: the first point of a column block starts the sum, each later
    one adds its slice to what the point before left. -/
theorem acc_eq (c : Dev nD) : ∀ (n : ℕ) (h : n < cfg0.N) (b : Fin 256) (cc : Fin 1280) (j : Fin 5120),
    j.val = n / 8 * 1280 + cc.val →
    ((outsAt0 (F := Ideal) m c n h).2 (ix2 b cc) : EReal) = ∑ k ∈ Finset.range ((n % 8 + 1) * 2560), term m c b j k := by
  intro n
  induction n using Nat.strong_induction_on with
  | _ n ih =>
    intro h b cc j hj
    have hN : n < 32 := lt_of_lt_of_eq h (show cfg0.N = 32 from N_0)
    by_cases h0 : n % 8 = 0
    · have h1 : ¬n % 8 = 7 := by omega
      rw [outsAt0_A m c ⟨n, h⟩ h0 h1]
      dsimp only
      refine (Cert.Pieces.sout_A_apply c (grid0.coords ⟨n, h⟩) (ms0_0 ⟨n, h⟩) (hs0_0 ⟨n, h⟩) (ms0_1 ⟨n, h⟩) (hs0_1 ⟨n, h⟩)
        (ms0_2 ⟨n, h⟩) (hs0_2 ⟨n, h⟩) (ms0_3 ⟨n, h⟩) (hs0_3 ⟨n, h⟩) scM0_0 (Memref.isWhole_whole _)
        (blkL m c ⟨n, h⟩) (blkR m c ⟨n, h⟩) (blkB m c ⟨n, h⟩) (colAt ⟨n, h⟩) (colAt_val ⟨n, h⟩) b cc
        ((hcond0_0 ⟨n, h⟩).mpr h0) (fun h' => h1 ((hcond0_1 ⟨n, h⟩).mp h'))).trans ?_
      rw [prod_eq' m c n h b cc j hj, term_split m c b j (n % 8), h0, Nat.zero_mul, Finset.range_zero, Finset.sum_empty, zero_add]
    · have hp : n - 1 < cfg0.N := Nat.lt_of_le_of_lt (Nat.sub_le _ _) h
      have hjp : j.val = (n - 1) / 8 * 1280 + cc.val := by omega
      have hs : (n - 1) % 8 + 1 = n % 8 := by omega
      by_cases h1 : n % 8 = 7
      · rw [outsAt0_C m c ⟨n, h⟩ h0 h1]
        dsimp only
        refine (Cert.Pieces.sout_C_apply c (grid0.coords ⟨n, h⟩) (ms0_0 ⟨n, h⟩) (hs0_0 ⟨n, h⟩) (ms0_1 ⟨n, h⟩) (hs0_1 ⟨n, h⟩)
          (ms0_2 ⟨n, h⟩) (hs0_2 ⟨n, h⟩) (ms0_3 ⟨n, h⟩) (hs0_3 ⟨n, h⟩) scM0_0 (Memref.isWhole_whole _)
          (blkL m c ⟨n, h⟩) (blkR m c ⟨n, h⟩) (blkB m c ⟨n, h⟩) (outsAt0 (F := Ideal) m c (n - 1) hp).2
          (colAt ⟨n, h⟩) (colAt_val ⟨n, h⟩) b cc
          (fun h' => h0 ((hcond0_0 ⟨n, h⟩).mp h')) ((hcond0_1 ⟨n, h⟩).mpr h1)).trans ?_
        rw [ih (n - 1) (by omega) hp b cc j hjp, prod_eq' m c n h b cc j hj, hs, term_split m c b j (n % 8)]
      · rw [outsAt0_B m c ⟨n, h⟩ h0 h1]
        dsimp only
        refine (Cert.Pieces.sout_B_apply c (grid0.coords ⟨n, h⟩) (ms0_0 ⟨n, h⟩) (hs0_0 ⟨n, h⟩) (ms0_1 ⟨n, h⟩) (hs0_1 ⟨n, h⟩)
          (ms0_2 ⟨n, h⟩) (hs0_2 ⟨n, h⟩) (ms0_3 ⟨n, h⟩) (hs0_3 ⟨n, h⟩) scM0_0 (Memref.isWhole_whole _)
          (blkL m c ⟨n, h⟩) (blkR m c ⟨n, h⟩) (blkB m c ⟨n, h⟩) (outsAt0 (F := Ideal) m c (n - 1) hp).2
          (colAt ⟨n, h⟩) (colAt_val ⟨n, h⟩) b cc
          (fun h' => h0 ((hcond0_0 ⟨n, h⟩).mp h')) (fun h' => h1 ((hcond0_1 ⟨n, h⟩).mp h'))).trans ?_
        rw [ih (n - 1) (by omega) hp b cc j hjp, prod_eq' m c n h b cc j hj, hs, term_split m c b j (n % 8)]

/-! ## The block written back, and the whole array -/

/-- Entry (b, j) of the result: tanh of the full product plus the bias. -/
def val (c : Dev nD) (b : Fin 256) (j : Fin 5120) : EReal :=
  Ideal.tanh ((∑ k : Fin 20480, lhsArr m c (ix2 b k) * rhsArr m c (ix2 k j)) + biasArr m c (ix2 (0 : Fin 1) j))

/-- The whole result array as one function of the arrays the region reads. -/
abbrev G (c : Dev nD) : S256x5120.Idx → EReal := fun i => val m c (i 0) (i 1)

/-- The last point of a column block leaves in the output's staging buffer that column block of the result. -/
theorem out_eq (c : Dev nD) (n : ℕ) (h : n < cfg0.N) (h7 : n % 8 = 7) (b : Fin 256) (cc : Fin 1280) (j : Fin 5120)
    (hj : j.val = n / 8 * 1280 + cc.val) :
    ((outsAt0 (F := Ideal) m c n h).1 (ix2 b cc) : EReal) = val m c b j := by
  have hN : n < 32 := lt_of_lt_of_eq h (show cfg0.N = 32 from N_0)
  have h0 : ¬n % 8 = 0 := by omega
  have hp : n - 1 < cfg0.N := Nat.lt_of_le_of_lt (Nat.sub_le _ _) h
  have hjp : j.val = (n - 1) / 8 * 1280 + cc.val := by omega
  have hs : (n - 1) % 8 + 1 = n % 8 := by omega
  rw [outsAt0_C m c ⟨n, h⟩ h0 h7]
  dsimp only
  refine (Cert.Pieces.out_C_apply c (grid0.coords ⟨n, h⟩) (ms0_0 ⟨n, h⟩) (hs0_0 ⟨n, h⟩) (ms0_1 ⟨n, h⟩) (hs0_1 ⟨n, h⟩)
    (ms0_2 ⟨n, h⟩) (hs0_2 ⟨n, h⟩) (ms0_3 ⟨n, h⟩) (hs0_3 ⟨n, h⟩) scM0_0 (Memref.isWhole_whole _)
    (blkL m c ⟨n, h⟩) (blkR m c ⟨n, h⟩) (blkB m c ⟨n, h⟩) (outsAt0 (F := Ideal) m c (n - 1) hp).2
    (colAt ⟨n, h⟩) (colAt_val ⟨n, h⟩) b cc
    (fun h' => h0 ((hcond0_0 ⟨n, h⟩).mp h')) ((hcond0_1 ⟨n, h⟩).mpr h7)).trans ?_
  rw [acc_eq m c (n - 1) hp b cc j hjp, prod_eq' m c n h b cc j hj, blkB_apply m c ⟨n, h⟩ cc j hj, hs,
    ← term_split m c b j (n % 8), h7, term_full]
  rfl

/-- WHAT A WRITING POINT WRITES BACK is its block of `G`. -/
theorem flushed_eq (c : Dev nD) (t : Fin cfg0.N) (hf : (cfg0.win 3).flush t = true) :
    (dats (F := Ideal) m 0 c).flushed 3 t = ((cfg0.win 3).blk t).view.read (Elt Ideal) (G m c) := by
  have h7 : t.val % 8 = 7 := (flush0_3 t).mp hf
  have hN : t.val < 32 := lt_of_lt_of_eq t.isLt (show cfg0.N = 32 from N_0)
  show (cfg0.win 3).cut (grid0.coords t) ((dats (F := Ideal) m 0 c).after 3 t) = _
  rw [after0_3]
  have key : ∀ y : S256x1280.Idx, ((outsAt0 (F := Ideal) m c t.val t.isLt).1 y : EReal)
      = ((cfg0.win 3).blk t).view.read (Elt Ideal) (G m c) y := by
    intro y
    obtain ⟨b, cc, rfl⟩ : ∃ (b : Fin 256) (cc : Fin 1280), y = ix2 b cc := ⟨y 0, y 1, eq_ix2 y⟩
    have hlt : t.val / 8 * 1280 + cc.val < 5120 := by have := cc.isLt; omega
    rw [out_eq m c t.val t.isLt h7 b cc ⟨t.val / 8 * 1280 + cc.val, hlt⟩ rfl,
      readO t (G m c) b cc ⟨t.val / 8 * 1280 + cc.val, hlt⟩ rfl]
  exact funext key

/-- An index of the array is in point `t`'s block iff each coordinate is in the block's range on its axis. -/
theorem mem_blk (t : Fin cfg0.N) (i : S256x5120.Idx) :
    i ∈ ((cfg0.win 3).blk t).view.set ↔ ∀ a : Fin 2, win0_3.index t a * S256x1280.size a ≤ (i a).val
      ∧ (i a).val < win0_3.index t a * S256x1280.size a + S256x1280.size a := by
  show i ∈ ((View.whole main_v20).slice (win0_3.rect t)).set ↔ _
  rw [View.set_slice_whole, Rect.mem_set_unit]
  exact Iff.rfl

/-- Every index of the result is written by the last point of its column block. -/
theorem cover (i : S256x5120.Idx) :
    ∃ t : Fin cfg0.N, (cfg0.win 3).flush t = true ∧ i ∈ ((cfg0.win 3).blk t).view.set := by
  have hi0 : (i 0).val < 256 := idx2_lt0 i
  have hi1 : (i 1).val < 5120 := idx2_lt1 i
  have hlt : 8 * ((i 1).val / 1280) + 7 < cfg0.N := by rw [show cfg0.N = 32 from N_0]; omega
  obtain ⟨-, -, -, -, -, -, e0, e1, -⟩ := idx_facts ⟨8 * ((i 1).val / 1280) + 7, hlt⟩
  refine ⟨⟨8 * ((i 1).val / 1280) + 7, hlt⟩, (flush0_3 _).mpr (by show (8 * ((i 1).val / 1280) + 7) % 8 = 7; omega), ?_⟩
  rw [mem_blk]
  intro a
  match a with
  | ⟨0, _⟩ =>
    show win0_3.index ⟨8 * ((i 1).val / 1280) + 7, hlt⟩ (0 : Fin 2) * 256 ≤ (i 0).val
      ∧ (i 0).val < win0_3.index ⟨8 * ((i 1).val / 1280) + 7, hlt⟩ (0 : Fin 2) * 256 + 256
    rw [e0]; omega
  | ⟨1, _⟩ =>
    show win0_3.index ⟨8 * ((i 1).val / 1280) + 7, hlt⟩ (1 : Fin 2) * 1280 ≤ (i 1).val
      ∧ (i 1).val < win0_3.index ⟨8 * ((i 1).val / 1280) + 7, hlt⟩ (1 : Fin 2) * 1280 + 1280
    rw [e1]
    show (8 * ((i 1).val / 1280) + 7) / 8 * 1280 ≤ (i 1).val ∧ (i 1).val < (8 * ((i 1).val / 1280) + 7) / 8 * 1280 + 1280
    omega

/-- THE ARRAY after the run is `G`. -/
theorem final (c : Dev nD) : (dats (F := Ideal) m 0 c).arrAt 3 cfg0.N = G m c :=
  (dats (F := Ideal) m 0 c).arrAt_eq_of_cover 3 (G m c) (flushed_eq m c) cover

/-- Entry (b, j) of the result array: tanh of row b of the left operand times column j of the right operand, plus the
    bias row's entry j. -/
theorem region_out (c : Dev nD) (b : Fin 256) (j : Fin 5120) :
    outArr m c (ix2 b j)
      = Ideal.tanh ((∑ k : Fin 20480, lhsArr m c (ix2 b k) * rhsArr m c (ix2 k j)) + biasArr m c (ix2 (0 : Fin 1) j)) :=
  congrFun (final m c) (ix2 b j)

end Cert.Accum

end
-- ==== Proof.KerValue.lean ====
/-
  The whole kernel program's run, read: its result is the first 5000 columns of the matrix-product
  region's result array, so entry (b, j) is tanh of row b of the padded activations times column j
  of the dense weight matrix, plus the padded bias at j.
-/
import proofs.«406503_j17016660427206_2_alg».proof.Proof.Accum
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KerValue

open Cert.KernelIdeal Cert.KernelIdeal.Gen Cert.KerHost Cert.Accum

variable (m : (ℓ : Loc nD τ sig) → Buf (Elt Ideal) ℓ) (ρ : Dev nD → PrngReg)

/-- The program's result on core `c`: the slice [0:256, 0:5000] of the region's result array. -/
abbrev result (c : Dev nD) : S256x5000.Idx → EReal :=
  extractStridedSlice S256x5000 ![0, 0] (outArr m c) slices_S256x5120_S256x5000_0_0

/-- The one host operation after the region reads the region's result array. -/
theorem tail_eq (c : Dev nD) :
    Pipeline.afterTail₀ cfgs (dats (F := Ideal) m) 0 (V0 m) [hostOps1] c main_v21 = result m c := by
  unfold Pipeline.afterTail₀
  show StableHlo.after hostOps1 _ (Proc.devRef .tc main_v21) = _
  after_results
  exact congrArg (fun a => extractStridedSlice S256x5000 ![0, 0] a slices_S256x5120_S256x5000_0_0)
    (Pipeline.withArrays_arr spec0 launch0.win.arr_inj c (V0 m c) (fun w => (dats (F := Ideal) m 0 c).arrAt w cfg0.N) 3)

/-- Every weakly fair execution of the kernel program ends with its result at `result` and its arguments unchanged. -/
theorem run : θ_run defs (onTc (τ := τ) (main (F := Ideal))) ⟨m, fun _ => 0, ρ⟩ (fun r => ∀ c : Dev nD,
      r.2.mem ((c.tc : Thread nD τ).loc main_v21) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v21 (Pipeline.mem_restRefs_of main_v21 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

/-- Column `j < 5000` of the result is column `j` of the region's array. -/
theorem result_apply (c : Dev nD) (b : Fin 256) (j : Fin 5000) (j' : Fin 5120) (hj : j'.val = j.val) :
    result m c (ix2 b j)
      = Ideal.tanh ((∑ k : Fin 20480, lhsArr m c (ix2 b k) * rhsArr m c (ix2 k j')) + biasArr m c (ix2 (0 : Fin 1) j')) := by
  rw [← region_out m c b j']
  exact extractStridedSlice_apply _ _ _ _ (ix2 b j') (fun a => by
    match a with
    | ⟨0, _⟩ => simp
    | ⟨1, _⟩ => simpa using hj)

end Cert.KerValue

end
-- ==== Proof.Bridge.lean ====
/-
  The dense kernel computes the sparse layer. Row b of the padded activations times column j of the
  dense weight matrix is, by the edge-sum law, the sum over the edges into unit j of the edge's
  source activation times its weight: the padded columns are zero, every source word is a unit of
  the input, and the activations and weights are finite.
-/
import proofs.«406503_j17016660427206_2_alg».proof.Proof.KerValue
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Bridge

open Cert.KernelIdeal Cert.KernelIdeal.Gen Cert.KerHost

variable (m : (ℓ : Loc nD τ sig) → Buf (Elt Ideal) ℓ)

/-- The kernel program's result at batch row `b` and output unit `j` is the layer's value there. -/
theorem kernel_unit (c : Dev nD)
    (hx : ∀ i, ∃ r : ℝ, argX m c i = (r : EReal)) (hw : ∀ i, ∃ r : ℝ, argW m c i = (r : EReal))
    (hsrc : ∀ i, 0 ≤ (argSrc m c i).toInt ∧ (argSrc m c i).toInt < 20000) (hdst : ∀ i, 0 ≤ (argDst m c i).toInt)
    (row : Fin 1000000 → Fin 20000) (hrow : ∀ e, (argSrc m c (ix1 e)).toInt = ((row e).val : ℤ))
    (b : Fin 256) (j : Fin 5000) :
    Cert.KerValue.result m c (ix2 b j)
      = Cert.EdgeSum.unit (argX m c) row (argDst m c) (argW m c) (argBias m c) b j := by
  have hj : j.val < 5120 := by have := j.isLt; omega
  rw [Cert.KerValue.result_apply m c b j ⟨j.val, hj⟩ rfl]
  unfold Cert.EdgeSum.unit
  -- the bias: column j < 5000 of the padded row is bias j
  have hb : biasArr m c (ix2 (0 : Fin 1) ⟨j.val, hj⟩) = argBias m c (ix1 j) := by
    rw [bias_apply m c ⟨j.val, hj⟩, dif_pos j.isLt]
  -- the product: the edge-sum law over the 20480 padded source units
  let s : Fin 1000000 → Fin 20480 := fun e => ⟨(row e).val, by have := (row e).isLt; omega⟩
  let xK : Fin 20480 → EReal := fun k => lhsArr m c (ix2 b k)
  have hxK : ∀ k, ∃ r : ℝ, xK k = (r : EReal) := fun k => by
    show ∃ r : ℝ, lhsArr m c (ix2 b k) = (r : EReal)
    rw [lhs_apply m c b k]
    by_cases h : k.val < 20000
    · rw [dif_pos h]; exact hx _
    · rw [dif_neg h]; exact ⟨0, rfl⟩
  have hlaw := Cert.EdgeSum.sum_mul_edgeSum s (fun e : Fin 1000000 => (argDst m c (ix1 e)).toInt = (j.val : ℤ)) xK
    (fun e => argW m c (ix1 e)) hxK (fun e => hw _)
  have hL : ∀ k : Fin 20480, lhsArr m c (ix2 b k) * rhsArr m c (ix2 k ⟨j.val, hj⟩)
      = xK k * ∑ e ∈ Finset.univ.filter (fun e : Fin 1000000 => s e = k ∧ (argDst m c (ix1 e)).toInt = (j.val : ℤ)), argW m c (ix1 e) := fun k => by
    rw [rhs_apply m c hsrc hdst k ⟨j.val, hj⟩]
    refine congrArg (fun z => xK k * z) (Finset.sum_congr ?_ fun _ _ => rfl)
    ext e
    simp only [Finset.mem_filter, Finset.mem_univ, true_and]
    refine and_congr_left fun _ => ?_
    rw [hrow e]
    constructor
    · intro h; exact Fin.ext (by exact_mod_cast h)
    · intro h; have := congrArg Fin.val h; exact_mod_cast this
  have hsum : (∑ k : Fin 20480, lhsArr m c (ix2 b k) * rhsArr m c (ix2 k ⟨j.val, hj⟩))
      = ∑ e ∈ Finset.univ.filter (fun e : Fin 1000000 => (argDst m c (ix1 e)).toInt = (j.val : ℤ)),
          argX m c (ix2 b (row e)) * argW m c (ix1 e) := by
    rw [Finset.sum_congr rfl fun k _ => hL k, hlaw]
    refine Finset.sum_congr rfl fun e _ => congrArg (fun z => z * argW m c (ix1 e)) ?_
    show lhsArr m c (ix2 b (s e)) = argX m c (ix2 b (row e))
    rw [lhs_apply m c b (s e), dif_pos (row e).isLt]
  rw [hb, hsum]

end Cert.Bridge

end
-- ==== Proof.RefValue.lean ====
/-
  The reference layer read at an index: per edge the source activation (a gather), times the edge's
  weight, added into the edge's destination unit (a scatter-add), plus bias, through tanh.
-/
import proofs.«406503_j17016660427206_2_alg».proof.Proof.Gen.ReferenceIdeal.Read
import proofs.«406503_j17016660427206_2_alg».proof.Proof.EdgeSum
import Idealize.ShloMosaic.Lib.Pipeline.Value
import Idealize.ShloMosaic.Lib.ValueIdx
import Idealize.ShloMosaic.Lib.StableHlo.Predicate
import Idealize.ShloMosaic.PureOps.Ideal.Laws

noncomputable section

open Idealize.ShloMosaic Idealize.ShloMosaic.TcCoe Idealize.SL.Sem Idealize.ShloMosaic.ValueIdx

namespace Cert.RefValue

open Cert.ReferenceIdeal Cert.ReferenceIdeal.Gen

/-! ## The gather, read -/

/-- Row `e` of the [1000000 × 1] column of start words. -/
abbrev col (e : Fin 1000000) : S1000000x1.Idx := ix2 e (0 : Fin 1)

/-- The gather reads, at batch row `b` and edge `e`, the operand's row `b` at the column edge `e`'s start word names:
    the word read signed and clamped into the operand's columns. -/
theorem gather_read {α : Type} (x : S256x20000.Idx → α) (idx : IVec S1000000x1 32) (b : Fin 256) (e : Fin 1000000) :
    Host.gather gather_S256x20000_S1000000x1_S256x1000000_0_1_n_n_1_1_2561 x idx (ix2 b e)
      = x (ix2 b ⟨min (idx (col e)).toInt.toNat 19999, by omega⟩) := by
  unfold Host.gather
  congr 1
  funext a
  refine Fin.ext ?_
  match a with
  | ⟨0, _⟩ =>
    -- axis 0 is the offset axis: no start, no batching, the result's own row
    show gather_S256x20000_S1000000x1_S256x1000000_0_1_n_n_1_1_2561.start (ix2 b e) idx 0
        + gather_S256x20000_S1000000x1_S256x1000000_0_1_n_n_1_1_2561.batchCoord (ix2 b e) 0
        + gather_S256x20000_S1000000x1_S256x1000000_0_1_n_n_1_1_2561.offCoord (ix2 b e) 0 = b.val
    have hk : (0 : Fin 2) ∈ gather_S256x20000_S1000000x1_S256x1000000_0_1_n_n_1_1_2561.sKept :=
      (GatherDims.mem_sKept _ _).mpr ⟨by decide, List.not_mem_nil⟩
    rw [GatherDims.batchCoord_eq_zero _ _ _ List.not_mem_nil]
    unfold GatherDims.start GatherDims.offCoord
    rw [dif_neg (show (0 : Fin 2) ∉ gather_S256x20000_S1000000x1_S256x1000000_0_1_n_n_1_1_2561.startIndexMap by decide),
      dif_pos hk]
    simp only [Nat.zero_add]
    rfl
  | ⟨1, _⟩ =>
    -- axis 1 is collapsed and start-indexed: the clamped start word alone
    show gather_S256x20000_S1000000x1_S256x1000000_0_1_n_n_1_1_2561.start (ix2 b e) idx 1
        + gather_S256x20000_S1000000x1_S256x1000000_0_1_n_n_1_1_2561.batchCoord (ix2 b e) 1
        + gather_S256x20000_S1000000x1_S256x1000000_0_1_n_n_1_1_2561.offCoord (ix2 b e) 1 = min (idx (col e)).toInt.toNat 19999
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S256x20000_S1000000x1_S256x1000000_0_1_n_n_1_1_2561.startIndexMap from List.mem_singleton.mpr rfl)]
    have hsi : gather_S256x20000_S1000000x1_S256x1000000_0_1_n_n_1_1_2561.siIdx (ix2 b e)
        ⟨List.idxOf (1 : Fin 2) gather_S256x20000_S1000000x1_S256x1000000_0_1_n_n_1_1_2561.startIndexMap,
          List.idxOf_lt_length_iff.2 (List.mem_singleton.mpr rfl)⟩ = col e := by
      funext c; refine Fin.ext ?_
      match c with
      | ⟨0, _⟩ => rfl
      | ⟨1, _⟩ => rfl
    rw [hsi]
    rfl

/-! ## The scatter-add's landing index -/

/-- The start of update `(e, c)`'s window on the operand's unit axis is edge `e`'s destination word, read signed. -/
theorem scatter_start0 (idx : IVec S1000000x1 32) (e : Fin 1000000) (c : Fin 256) :
    scatter_S5000x256_S1000000x1_S1000000x256_1_0_0_1.start (ix2 e c) idx 0 = (idx (col e)).toInt := by
  unfold ScatterDims.start
  rw [dif_pos (show (0 : Fin 2) ∈ scatter_S5000x256_S1000000x1_S1000000x256_1_0_0_1.scatterDimsToOperandDims from List.mem_singleton.mpr rfl)]
  have hsi : scatter_S5000x256_S1000000x1_S1000000x256_1_0_0_1.siIdx (ix2 e c)
      ⟨List.idxOf (0 : Fin 2) scatter_S5000x256_S1000000x1_S1000000x256_1_0_0_1.scatterDimsToOperandDims,
        List.idxOf_lt_length_iff.2 (List.mem_singleton.mpr rfl)⟩ = col e := by
    funext a; refine Fin.ext ?_
    match a with
    | ⟨0, _⟩ => rfl
    | ⟨1, _⟩ => rfl
  rw [hsi]

/-- The batch axis of the operand is not start-indexed. -/
theorem scatter_start1 (idx : IVec S1000000x1 32) (e : Fin 1000000) (c : Fin 256) :
    scatter_S5000x256_S1000000x1_S1000000x256_1_0_0_1.start (ix2 e c) idx 1 = 0 := by
  unfold ScatterDims.start
  rw [dif_neg (show (1 : Fin 2) ∉ scatter_S5000x256_S1000000x1_S1000000x256_1_0_0_1.scatterDimsToOperandDims by decide)]

/-- The unit axis is an inserted window axis: no window coordinate on it. -/
theorem scatter_window0 (e : Fin 1000000) (c : Fin 256) :
    scatter_S5000x256_S1000000x1_S1000000x256_1_0_0_1.window (ix2 e c) 0 = 0 := by
  unfold ScatterDims.window
  rw [dif_neg (show (0 : Fin 2) ∉ scatter_S5000x256_S1000000x1_S1000000x256_1_0_0_1.sKept by decide)]

/-- The batch axis carries the update's window coordinate. -/
theorem scatter_window1 (e : Fin 1000000) (c : Fin 256) :
    scatter_S5000x256_S1000000x1_S1000000x256_1_0_0_1.window (ix2 e c) 1 = c.val := by
  unfold ScatterDims.window
  rw [dif_pos (show (1 : Fin 2) ∈ scatter_S5000x256_S1000000x1_S1000000x256_1_0_0_1.sKept by decide)]
  rfl

/-- Update `(e, c)` lands at unit `j`, batch row `b` exactly when edge `e`'s destination word, read signed, is `j` and
    `c` is `b`; a word that is no unit of the result lands nowhere. -/
theorem scatter_lands (idx : IVec S1000000x1 32) (e : Fin 1000000) (c b : Fin 256) (j : Fin 5000) :
    scatter_S5000x256_S1000000x1_S1000000x256_1_0_0_1.resultIdx? (ix2 e c) idx = some (ix2 j b)
      ↔ (idx (col e)).toInt = (j.val : ℤ) ∧ c = b := by
  have hs0 := scatter_start0 idx e c
  have hs1 := scatter_start1 idx e c
  have hw0 := scatter_window0 e c
  have hw1 := scatter_window1 e c
  have hj : j.val < 5000 := j.isLt
  have hc : c.val < 256 := c.isLt
  constructor
  · intro h
    unfold ScatterDims.resultIdx? at h
    split at h
    · rename_i hin
      have h' := Option.some.inj h
      have h0 : (scatter_S5000x256_S1000000x1_S1000000x256_1_0_0_1.start (ix2 e c) idx 0 + ((scatter_S5000x256_S1000000x1_S1000000x256_1_0_0_1.window (ix2 e c) 0 : ℕ) : ℤ)).toNat = j.val :=
        congrArg Fin.val (congrFun h' 0)
      have h1 : (scatter_S5000x256_S1000000x1_S1000000x256_1_0_0_1.start (ix2 e c) idx 1 + ((scatter_S5000x256_S1000000x1_S1000000x256_1_0_0_1.window (ix2 e c) 1 : ℕ) : ℤ)).toNat = b.val :=
        congrArg Fin.val (congrFun h' 1)
      have hin0 := (hin 0).1
      have hin1 := (hin 1).1
      rw [hs0, hw0] at h0 hin0
      rw [hs1, hw1] at h1 hin1
      exact ⟨by omega, Fin.ext (by omega)⟩
    · exact absurd h (by simp)
  · rintro ⟨ht, rfl⟩
    unfold ScatterDims.resultIdx?
    have hin : ∀ a : Fin S5000x256.rank,
        0 ≤ scatter_S5000x256_S1000000x1_S1000000x256_1_0_0_1.start (ix2 e c) idx a + ((scatter_S5000x256_S1000000x1_S1000000x256_1_0_0_1.window (ix2 e c) a : ℕ) : ℤ)
          ∧ scatter_S5000x256_S1000000x1_S1000000x256_1_0_0_1.start (ix2 e c) idx a + ((scatter_S5000x256_S1000000x1_S1000000x256_1_0_0_1.window (ix2 e c) a : ℕ) : ℤ) < ((S5000x256.size a : ℕ) : ℤ) := by
      intro a
      match a with
      | ⟨0, _⟩ =>
        show 0 ≤ scatter_S5000x256_S1000000x1_S1000000x256_1_0_0_1.start (ix2 e c) idx 0 + ((scatter_S5000x256_S1000000x1_S1000000x256_1_0_0_1.window (ix2 e c) 0 : ℕ) : ℤ)
          ∧ scatter_S5000x256_S1000000x1_S1000000x256_1_0_0_1.start (ix2 e c) idx 0 + ((scatter_S5000x256_S1000000x1_S1000000x256_1_0_0_1.window (ix2 e c) 0 : ℕ) : ℤ) < ((5000 : ℕ) : ℤ)
        rw [hs0, hw0, ht]; omega
      | ⟨1, _⟩ =>
        show 0 ≤ scatter_S5000x256_S1000000x1_S1000000x256_1_0_0_1.start (ix2 e c) idx 1 + ((scatter_S5000x256_S1000000x1_S1000000x256_1_0_0_1.window (ix2 e c) 1 : ℕ) : ℤ)
          ∧ scatter_S5000x256_S1000000x1_S1000000x256_1_0_0_1.start (ix2 e c) idx 1 + ((scatter_S5000x256_S1000000x1_S1000000x256_1_0_0_1.window (ix2 e c) 1 : ℕ) : ℤ) < ((256 : ℕ) : ℤ)
        rw [hs1, hw1]; omega
    rw [dif_pos hin]
    congr 1
    funext a
    refine Fin.ext ?_
    match a with
    | ⟨0, _⟩ =>
      show (scatter_S5000x256_S1000000x1_S1000000x256_1_0_0_1.start (ix2 e c) idx 0 + ((scatter_S5000x256_S1000000x1_S1000000x256_1_0_0_1.window (ix2 e c) 0 : ℕ) : ℤ)).toNat = j.val
      rw [hs0, hw0, ht]; omega
    | ⟨1, _⟩ =>
      show (scatter_S5000x256_S1000000x1_S1000000x256_1_0_0_1.start (ix2 e c) idx 1 + ((scatter_S5000x256_S1000000x1_S1000000x256_1_0_0_1.window (ix2 e c) 1 : ℕ) : ℤ)).toNat = c.val
      rw [hs1, hw1]; omega

/-! ## One edge's update -/

/-- A source word that is not negative read signed is its own normal form: the wrap of negative words is not taken. -/
theorem norm_word (x1 : S1000000.Idx → BitVec 32) (e : Fin 1000000) (h : 0 ≤ (x1 (ix1 e)).toInt) :
    Read.val_main_v5 (F := Ideal) x1 (col e) = x1 (ix1 e) := by
  have hi : Read.idx_main_v5 (col e) = ix1 e := by
    funext a; match a with | ⟨0, _⟩ => rfl
  rw [Read.val_main_v5_apply, hi, Read.val_main_v4_apply, Read.val_main_v1_apply, Read.val_main_v0_apply,
    Read.val_main_c_apply]
  have hlt : IntOp.cmpi .slt (x1 (ix1 e)) 0#32 = 0#1 := by
    have hs : (x1 (ix1 e)).slt 0#32 = false := by
      rw [BitVec.slt_eq_decide, BitVec.toInt_zero]
      exact decide_eq_false (not_lt.mpr h)
    unfold IntOp.cmpi
    simp only [hs]
    rfl
  rw [hlt, select_zero]

/-- The update of edge `e` at batch row `b`: the source unit's activation in row `b` times the edge's weight. -/
theorem edge_value (x0 : S256x20000.Idx → EReal) (x1 : S1000000.Idx → BitVec 32) (x3 : S1000000.Idx → EReal)
    (row : Fin 1000000 → Fin 20000) (hrow : ∀ e, (x1 (ix1 e)).toInt = ((row e).val : ℤ))
    (b : Fin 256) (e : Fin 1000000) :
    (Read.val_main_v10 (F := Ideal) x0 x1 x3 (ix2 e b) : EReal) = x0 (ix2 b (row e)) * x3 (ix1 e) := by
  have hi10 : Read.idx_main_v10 (ix2 e b) = ix2 b e := by
    funext a; match a with | ⟨0, _⟩ => rfl | ⟨1, _⟩ => rfl
  rw [Read.val_main_v10_apply, hi10, Read.val_main_v9_apply, Ideal.mulf_def]
  congr 1
  · -- the gathered activation: row b at the source unit
    unfold Read.val_main_v6
    rw [gather_read]
    congr 1
    funext a
    match a with
    | ⟨0, _⟩ => rfl
    | ⟨1, _⟩ =>
      refine Fin.ext ?_
      show min (Read.val_main_v5 (F := Ideal) x1 (col e)).toInt.toNat 19999 = (row e).val
      rw [norm_word x1 e (by rw [hrow e]; exact Int.natCast_nonneg _), hrow e, Int.toNat_natCast]
      have := (row e).isLt
      omega
  · -- the edge's weight, laid along the batch rows
    rw [Read.val_main_v8_apply, Read.val_main_v7_apply]
    congr 1
    funext a; match a with | ⟨0, _⟩ => rfl

/-! ## The scatter-add, summed over the edges -/

/-- The accumulating scatter read at an index: the operand's element plus the updates that land on it. -/
theorem hostScatterAdd_apply {s si su : Shape} (d : ScatterDims s si su) {w : Nat} (x : s.Idx → EReal) (idx : IVec si w)
    (upd : su.Idx → EReal) (i : s.Idx) :
    Ideal.hostScatterAdd d x idx upd i
      = x i + ∑ u ∈ Finset.univ.filter (fun u => d.resultIdx? u idx = some i), upd u := rfl

/-- At the ideal instance the host's accumulating scatter is the exact one. -/
theorem host_scatterAdd_ideal {s si su : Shape} {φ : FTy} {w : Nat} (d : ScatterDims s si su) (x : FVec Ideal s φ)
    (idx : IVec si w) (upd : FVec Ideal su φ) :
    Host.scatterAdd d x idx upd = Ideal.hostScatterAdd d x idx upd := rfl

/-- The scatter stage is the host's accumulating scatter of the edge updates into the zero array, at the destination words. -/
theorem v13_unfold (x0 : S256x20000.Idx → EReal) (x1 x2 : S1000000.Idx → BitVec 32) (x3 : S1000000.Idx → EReal) :
    (Read.val_main_v13 (F := Ideal) x0 x1 x2 x3 : FVec Ideal S5000x256 .f32)
      = Host.scatterAdd (F := Ideal) (φ := .f32) scatter_S5000x256_S1000000x1_S1000000x256_1_0_0_1 (Read.val_main_v11 (F := Ideal))
          (Read.val_main_v12 (F := Ideal) x2) (Read.val_main_v10 (F := Ideal) x0 x1 x3) := rfl

/-- At unit `j` and batch row `b` the scatter-add holds the sum, over the edges whose destination word read signed is `j`,
    of the edge's update at row `b`. -/
theorem scatter_sum (x0 : S256x20000.Idx → EReal) (x1 x2 : S1000000.Idx → BitVec 32) (x3 : S1000000.Idx → EReal)
    (row : Fin 1000000 → Fin 20000) (hrow : ∀ e, (x1 (ix1 e)).toInt = ((row e).val : ℤ)) (b : Fin 256) (j : Fin 5000) :
    (Read.val_main_v13 (F := Ideal) x0 x1 x2 x3 (ix2 j b) : EReal)
      = ∑ e ∈ Finset.univ.filter (fun e : Fin 1000000 => (x2 (ix1 e)).toInt = (j.val : ℤ)),
          x0 (ix2 b (row e)) * x3 (ix1 e) := by
  refine (congrFun (v13_unfold x0 x1 x2 x3) (ix2 j b)).trans ?_
  refine (congrFun (host_scatterAdd_ideal _ _ _ _) (ix2 j b)).trans ?_
  refine (hostScatterAdd_apply _ _ _ _ _).trans ?_
  -- the operand is the zero array
  rw [Read.val_main_v11_apply, Read.val_main_cst_apply, Ideal.ofBits_def, Ideal.ofBits_zero_f32, zero_add]
  -- both sides as sums over all indices of guarded terms; the update index split into edge and batch row
  rw [Finset.sum_filter, sum_idx2, Finset.sum_filter]
  refine Finset.sum_congr rfl fun e _ => ?_
  have h12 : Read.val_main_v12 (F := Ideal) x2 (col e) = x2 (ix1 e) := by
    rw [Read.val_main_v12_apply]
    exact congrArg x2 (funext fun a => match a with | ⟨0, _⟩ => rfl)
  have hP : ∀ c : Fin 256,
      (scatter_S5000x256_S1000000x1_S1000000x256_1_0_0_1.resultIdx? (ix2 e c) (Read.val_main_v12 (F := Ideal) x2) = some (ix2 j b))
        ↔ ((x2 (ix1 e)).toInt = (j.val : ℤ) ∧ c = b) := fun c => by
    rw [scatter_lands, h12]
  simp only [hP]
  by_cases hq : (x2 (ix1 e)).toInt = (j.val : ℤ)
  · -- the edge goes into unit j: of its 256 updates the one at row b lands
    simp only [hq, true_and, if_true]
    rw [Finset.sum_ite_eq' Finset.univ b, if_pos (Finset.mem_univ _), edge_value x0 x1 x3 row hrow b e]
  · -- the edge goes elsewhere (or nowhere): none of its updates lands here
    simp only [hq, false_and, if_false, Finset.sum_const_zero]

/-- The reference's result at batch row `b` and output unit `j` is the layer's value there, when `row e` is edge `e`'s
    source word read signed (so every source word is a unit of the input). -/
theorem ref_unit (x0 : S256x20000.Idx → EReal) (x1 x2 : S1000000.Idx → BitVec 32) (x3 : S1000000.Idx → EReal)
    (x4 : S5000.Idx → EReal) (row : Fin 1000000 → Fin 20000)
    (hrow : ∀ e, (x1 (ix1 e)).toInt = ((row e).val : ℤ)) (b : Fin 256) (j : Fin 5000) :
    (Cert.ReferenceIdeal.Read.val_main_v18 (F := Ideal) x0 x1 x2 x3 x4 (ix2 b j) : EReal)
      = Cert.EdgeSum.unit x0 row x2 x3 x4 b j := by
  have hi14 : Read.idx_main_v14 (ix2 b j) = ix2 j b := by
    funext a; match a with | ⟨0, _⟩ => rfl | ⟨1, _⟩ => rfl
  have hi15 : Read.idx_main_v15 (Read.idx_main_v16 (ix2 b j)) = ix1 j := by
    funext a; match a with | ⟨0, _⟩ => rfl
  rw [Read.val_main_v18_apply, Ideal.hostUnary_tanh_def, Read.val_main_v17_apply, Ideal.addf_def,
    Read.val_main_v14_apply, Read.val_main_v16_apply, Read.val_main_v15_apply, hi14, hi15,
    scatter_sum x0 x1 x2 x3 row hrow b j]
  unfold Cert.EdgeSum.unit
  with_reducible rfl

end Cert.RefValue

end
-- ==== Proof.PreFacts.lean ====
/-
  What the precondition says of the inputs: the activations, the edge weights and the bias are
  finite numbers; every source word is a unit of the input; every destination word is non-negative.
-/
import proofs.«406503_j17016660427206_2_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

open Idealize.ShloMosaic Idealize.ShloMosaic.ValueIdx

namespace Cert.PreFacts

open Cert.Pre_finite_inputs

/-- The rank-0 shape has exactly one index: a function out of the empty coordinate set. -/
instance subsingleton_scalar_idx : Subsingleton S_.Idx := ⟨fun a b => funext fun d => d.elim0⟩

/-- The f32 pattern with all-ones exponent, zero significand and clear sign denotes +∞. -/
theorem ofBits_pos_inf : Ideal.ofBits .f32 0x7F800000#32 = (⊤ : EReal) := by
  simp [Ideal.ofBits, Ideal.ieee]

/-- |x| < +∞ over the extended reals excludes both infinities: |⊥| = max ⊥ ⊤ = ⊤ and |⊤| = ⊤,
    neither of which lies strictly below ⊤; what is left is a real number. -/
theorem real_of_abs_lt_top (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

/-- The element test of a float input, at one index: |x| compared below the broadcast +∞ pattern. -/
theorem real_of_test (x : EReal)
    (h : Ideal.cmp .olt (max x (-x)) (Ideal.ofBits .f32 0x7F800000#32) = 1#1) : ∃ r : ℝ, x = (r : EReal) := by
  rw [ofBits_pos_inf] at h
  exact real_of_abs_lt_top x h

/-- A word that tests signed-at-least the zero word reads, signed, as a non-negative integer. -/
theorem nonneg_of_sge (a : BitVec 32) (h : IntOp.cmpi .sge a 0#32 = 1#1) : 0 ≤ a.toInt := by
  have h' := IntOp.cmpi_sge.1 h
  rwa [show (0#32 : BitVec 32).toInt = 0 from by decide] at h'

/-- A word that tests signed-below the word 20000 reads, signed, as an integer below 20000. -/
theorem lt_of_slt (a : BitVec 32) (h : IntOp.cmpi .slt a 20000#32 = 1#1) : a.toInt < 20000 := by
  have h' := IntOp.cmpi_slt.1 h
  rwa [show (20000#32 : BitVec 32).toInt = 20000 from by decide] at h'

theorem of_pre [Cert.Pre_finite_inputs.Facts]
    (x0 : S256x20000.Idx → EReal) (x1 x2 : S1000000.Idx → BitVec 32) (x3 : S1000000.Idx → EReal) (x4 : S5000.Idx → EReal)
    (h : Cert.Pre_finite_inputs.fn (F := Ideal) x0 x1 x2 x3 x4 = fun _ => 1#1) :
    (∀ i, ∃ r : ℝ, x0 i = (r : EReal)) ∧ (∀ i, ∃ r : ℝ, x3 i = (r : EReal)) ∧ (∀ i, ∃ r : ℝ, x4 i = (r : EReal))
      ∧ (∀ i, 0 ≤ (x1 i).toInt ∧ (x1 i).toInt < 20000) ∧ (∀ i, 0 ≤ (x2 i).toInt) := by
  -- the predicate at its one index: a conjunction of six all-reductions, each equal to the true word
  have h0 := congrFun h ValueIdx.ix0
  dsimp only [fn, fn_part1] at h0
  obtain ⟨h0, hdst⟩ := IntOp.andi_eq_one.1 h0
  obtain ⟨h0, hsrcU⟩ := IntOp.andi_eq_one.1 h0
  obtain ⟨h0, hsrcL⟩ := IntOp.andi_eq_one.1 h0
  obtain ⟨h0, hb⟩ := IntOp.andi_eq_one.1 h0
  obtain ⟨hx, hw⟩ := IntOp.andi_eq_one.1 h0
  -- an all-reduction equal to the true word gives the element test at every index
  refine ⟨fun i => ?_, fun i => ?_, fun i => ?_, fun i => ⟨?_, ?_⟩, fun i => ?_⟩
  · exact real_of_test (x0 i) (Host.reduce_andi_all _ _ _ _ _ hx i)
  · exact real_of_test (x3 i) (Host.reduce_andi_all _ _ _ _ _ hw i)
  · exact real_of_test (x4 i) (Host.reduce_andi_all _ _ _ _ _ hb i)
  · exact nonneg_of_sge (x1 i) (Host.reduce_andi_all _ _ _ _ _ hsrcL i)
  · exact lt_of_slt (x1 i) (Host.reduce_andi_all _ _ _ _ _ hsrcU i)
  · exact nonneg_of_sge (x2 i) (Host.reduce_andi_all _ _ _ _ _ hdst i)

end Cert.PreFacts

end
-- ==== Proof.lean ====
/-
  A sparse layer against its dense form. The reference gathers, per edge e, the source activation
  x[b, src e], multiplies by the edge's weight, adds the products into the edge's destination unit and
  applies tanh (· + bias). The kernel first adds the edge weights into a dense 20480 × 5120 matrix
  (entry (k, j): the sum of the weights of the edges from k to j), pads the activations with zero
  columns and the bias with zeros, runs a tiled matrix product with the accumulator carried over the
  eight slices of the contraction axis, applies tanh (· + bias) at the last slice, and keeps the first
  5000 columns. Over the extended reals a change of float format is the identity, so the two agree
  whenever the activations and weights are finite (x · (w₁ + w₂) = x · w₁ + x · w₂ needs it) and the
  edge words index what they are meant to index: every source word a unit of the input (0 ≤ src <
  20000; outside it the reference clamps and the dense matrix holds the weight in a padded or dropped
  row) and every destination word non-negative (a negative one the reference drops and the dense
  matrix wraps). The frames of the two kernel programs are the generated ones; the reference's frame
  is its generated run with the result dropped; the idealization rewrote nothing.
-/
import proofs.«406503_j17016660427206_2_alg».proof.Defs
import proofs.«406503_j17016660427206_2_alg».proof.Proof.Gen.Kernel
import proofs.«406503_j17016660427206_2_alg».proof.Proof.Gen.Kernel.Skeleton
import proofs.«406503_j17016660427206_2_alg».proof.Proof.Gen.Kernel.Launch
import proofs.«406503_j17016660427206_2_alg».proof.Proof.Gen.Kernel.Points
import proofs.«406503_j17016660427206_2_alg».proof.Proof.Gen.Kernel.Frame
import proofs.«406503_j17016660427206_2_alg».proof.Proof.Gen.KernelIdeal
import proofs.«406503_j17016660427206_2_alg».proof.Proof.Gen.KernelIdeal.Skeleton
import proofs.«406503_j17016660427206_2_alg».proof.Proof.Gen.KernelIdeal.Launch
import proofs.«406503_j17016660427206_2_alg».proof.Proof.Gen.KernelIdeal.Points
import proofs.«406503_j17016660427206_2_alg».proof.Proof.Gen.KernelIdeal.Frame
import proofs.«406503_j17016660427206_2_alg».proof.Proof.Gen.ReferenceIdeal
import proofs.«406503_j17016660427206_2_alg».proof.Proof.Gen.ReferenceIdeal.Run
import proofs.«406503_j17016660427206_2_alg».proof.Proof.Gen.ReferenceIdeal.Read
import proofs.«406503_j17016660427206_2_alg».proof.Proof.Gen.Pre_finite_inputs
import proofs.«406503_j17016660427206_2_alg».proof.Proof.Bridge
import proofs.«406503_j17016660427206_2_alg».proof.Proof.RefValue
import proofs.«406503_j17016660427206_2_alg».proof.Proof.PreFacts
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the layer's value: the kernel's result array by the edge-sum law, the reference's by reading
    its gather and scatter-add at an index. -/
theorem algebraic : Cert.algebraic_KernelIdeal_ReferenceIdeal := by
  intro m ρ m' ρ' hpre hagree
  refine ⟨fun c => Cert.KerValue.result m c, Cert.KerValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  rw [Cert.ReferenceIdeal.Read.val_main_v18_eq]
  obtain ⟨hx, hw, _, hsrc0, hdst⟩ := Cert.PreFacts.of_pre _ _ _ _ _ (hpre c)
  have hsrc : ∀ i, 0 ≤ (Cert.KerHost.argSrc m c i).toInt ∧ (Cert.KerHost.argSrc m c i).toInt < 20000 := hsrc0
  have hlt : ∀ e : Fin 1000000, (Cert.KerHost.argSrc m c (ix1 e)).toInt.toNat < 20000 := fun e => by
    have := hsrc (ix1 e); omega
  have hrow : ∀ e : Fin 1000000, (Cert.KerHost.argSrc m c (ix1 e)).toInt
      = (((⟨(Cert.KerHost.argSrc m c (ix1 e)).toInt.toNat, hlt e⟩ : Fin 20000).val : ℕ) : ℤ) := fun e => by
    have := (hsrc (ix1 e)).1
    show _ = (((Cert.KerHost.argSrc m c (ix1 e)).toInt.toNat : ℕ) : ℤ)
    omega
  funext i
  obtain ⟨b, j, rfl⟩ : ∃ (b : Fin 256) (j : Fin 5000), i = ix2 b j := ⟨i 0, i 1, eq_ix2 i⟩
  exact (Cert.RefValue.ref_unit _ _ _ _ _ _ hrow b j).trans
    (Cert.Bridge.kernel_unit m c hx hw hsrc hdst _ hrow b j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
